-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x128 .f32) (main_arg1 : IVec S2x1600000 32) (main_arg2 : FVec F S128x128 .f32) (main_arg3 : FVec F S128 .f32) (main_arg4 : FVec F S128x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 89
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1, .i32⟩
  | .hbm, ⟨41, _⟩ => ⟨S_, .i32⟩
  | .hbm, ⟨42, _⟩ => ⟨S1700000x1, .i32⟩
  | .hbm, ⟨43, _⟩ => ⟨S1700000x1, .i1⟩
  | .hbm, ⟨44, _⟩ => ⟨S1x1, .i32⟩
  | .hbm, ⟨45, _⟩ => ⟨S1700000x1, .i32⟩
  | .hbm, ⟨46, _⟩ => ⟨S1700000x1, .i1⟩
  | .hbm, ⟨47, _⟩ => ⟨S1700000x1, .i1⟩
  | .hbm, ⟨48, _⟩ => ⟨S_, .i1⟩
  | .hbm, ⟨49, _⟩ => ⟨S1700000, .i1⟩
  | .hbm, ⟨50, _⟩ => ⟨S1700000x128, .f32⟩
  | .hbm, ⟨51, _⟩ => ⟨S1700000x128, .i1⟩
  | .hbm, ⟨52, _⟩ => ⟨S_, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S100000x128, .f32⟩
  | .hbm, ⟨60, _⟩ => ⟨S100000x16, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1, .i32⟩
  | .hbm, ⟨70, _⟩ => ⟨S_, .i32⟩
  | .hbm, ⟨71, _⟩ => ⟨S1700000x1, .i32⟩
  | .hbm, ⟨72, _⟩ => ⟨S1700000x1, .i1⟩
  | .hbm, ⟨73, _⟩ => ⟨S1x1, .i32⟩
  | .hbm, ⟨74, _⟩ => ⟨S1700000x1, .i32⟩
  | .hbm, ⟨75, _⟩ => ⟨S1700000x1, .i1⟩
  | .hbm, ⟨76, _⟩ => ⟨S1700000x1, .i1⟩
  | .hbm, ⟨77, _⟩ => ⟨S_, .i1⟩
  | .hbm, ⟨78, _⟩ => ⟨S1700000, .i1⟩
  | .hbm, ⟨79, _⟩ => ⟨S1700000x16, .f32⟩
  | .hbm, ⟨80, _⟩ => ⟨S1700000x16, .i1⟩
  | .hbm, ⟨81, _⟩ => ⟨S_, .f32⟩
  | .hbm, ⟨82, _⟩ => ⟨S1700000x16, .f32⟩
  | .hbm, ⟨83, _⟩ => ⟨S1700000x16, .f32⟩
  | .hbm, ⟨84, _⟩ => ⟨S_, .f32⟩
  | .hbm, ⟨85, _⟩ => ⟨S100000x16, .f32⟩
  | .hbm, ⟨86, _⟩ => ⟨S1700000x1, .i32⟩
  | .hbm, ⟨87, _⟩ => ⟨S100000x16, .f32⟩
  | .hbm, ⟨88, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x16, .f32⟩
  | .local _ .vmem, ⟨17, _⟩ => ⟨S5000x1, .f32⟩
  | .local _ .vmem, ⟨18, _⟩ => ⟨S5000x1, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S16, .f32⟩
  | .local _ .vmem, ⟨24, _⟩ => ⟨S5000x1, .f32⟩
  | .local _ .vmem, ⟨25, _⟩ => ⟨S5000x1, .f32⟩
  | .local _ .vmem, ⟨26, _⟩ => ⟨S5000x16, .f32⟩
  | .local _ .vmem, ⟨27, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S1700000_S1700000x16_0 : S1700000.BroadcastsInDim S1700000x16 (![0] : Fin 1 → Fin S1700000x16.rank)
  bcast_S_S1700000x16 : S_.BroadcastsInDim S1700000x16 (![] : Fin 0 → Fin S1700000x16.rank)
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x16, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x16, .f32⟩
  | .hbm, ⟨118, _⟩ => ⟨S1700000x1, .f32⟩
  | .hbm, ⟨119, _⟩ => ⟨S1700000x16, .f32⟩
  | .hbm, ⟨120, _⟩ => ⟨S1700000x16, .f32⟩
  | .hbm, ⟨121, _⟩ => ⟨S_, .f32⟩
  | .hbm, ⟨122, _⟩ => ⟨S100000x16, .f32⟩
  | .hbm, ⟨123, _⟩ => ⟨S1700000x1, .i32⟩
  | .hbm, ⟨124, _⟩ => ⟨S100000x16, .f32⟩
  | .hbm, ⟨125, _⟩ => ⟨S1x16, .f32⟩
  | .hbm, ⟨126, _⟩ => ⟨S100000x16, .f32⟩
  | .hbm, ⟨127, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Spec.lean ====
/-
  Two layers of graph convolution with symmetric normalisation, as a function of the arguments, index by index.

  The edge list `edge_index : i32[2, 1600000]` gives a source word and a target word per edge; one self-loop per
  node is appended, so there are 1700000 edges over 100000 nodes. The degree of node `v` counts the edges whose
  target is `v`, and `dis v` is `1/sqrt(max(deg v, 1))` where the degree is positive and `0` elsewhere. One layer
  sends a node-feature matrix `X` to

    out[v, c] = act ( (sum over edges k with target v of (X W)[src k, c] * dis (src k)) * dis v + b c ),

  the arrangement that scales per node before and after the aggregation. The other arrangement scales each edge's
  message by `dis (src k) * dis (tgt k)` inside the sum. The two agree on the extended reals because multiplication
  there is associative and, for a factor `d` with `0 ≤ d < ⊤`, distributes over a finite sum.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.Gcn

open Idealize.ShloMosaic Idealize.ShloMosaic.ValueIdx

/-! ## Shapes and the relations between them -/

abbrev S2xM : Shape := ⟨2, ![2, 1600000]⟩
abbrev S1xM : Shape := ⟨2, ![1, 1600000]⟩
abbrev SM : Shape := ⟨1, ![1600000]⟩
abbrev SN : Shape := ⟨1, ![100000]⟩
abbrev SE : Shape := ⟨1, ![1700000]⟩
abbrev SEx1 : Shape := ⟨2, ![1700000, 1]⟩
abbrev S0 : Shape := ⟨0, ![]⟩

theorem slice_row0 : S2xM.Slices ![0, 0] S1xM := by decide
theorem slice_row1 : S2xM.Slices ![1, 0] S1xM := by decide
theorem cast_row : S1xM.ShapeCasts SM := by decide
theorem cat_loops : Shape.Concatenates [SM, SN] SE 0 := by decide
theorem splat_E : S0.BroadcastsInDim SE (![] : Fin 0 → Fin SE.rank) := by decide
theorem splat_N : S0.BroadcastsInDim SN (![] : Fin 0 → Fin SN.rank) := by decide
theorem column_E : SE.BroadcastsInDim SEx1 (![0] : Fin 1 → Fin SEx1.rank) := by decide
theorem degScatter_wf : ScatterDims.WF SN SEx1 SE [] [0] [0] 1 := by decide

/-! ## The edge words, the degrees and the normalisation factor -/

/-- The source words: row 0 of the edge list, then the node numbers `0 … 99999` (the self-loops). -/
def srcOf (ei : IVec S2xM 32) : IVec SE 32 :=
  concatenate SE 0 [⟨SM, shapeCast SM (extractStridedSlice S1xM ![0, 0] ei slice_row0) cast_row⟩, ⟨SN, iotaInDim SN 32 0⟩] cat_loops

/-- The target words: row 1 of the edge list, then the node numbers. -/
def dstOf (ei : IVec S2xM 32) : IVec SE 32 :=
  concatenate SE 0 [⟨SM, shapeCast SM (extractStridedSlice S1xM ![1, 0] ei slice_row1) cast_row⟩, ⟨SN, iotaInDim SN 32 0⟩] cat_loops

/-- The dimension numbers of the scatter that counts degrees: scalars into a vector. -/
def degScatter : ScatterDims SN SEx1 SE where
  updateWindowDims := []
  insertedWindowDims := [0]
  scatterDimsToOperandDims := [0]
  indexVectorDim := 1
  wf := degScatter_wf

/-- The degree of every node: a one added at each edge's target. -/
def degOf (dst : IVec SE 32) : FVec Ideal SN .f32 :=
  Host.scatterAdd (F := Ideal) degScatter (broadcastInDim SN ![] splat_N (constant (F := Ideal) S0 .f32 0x00000000#32))
    (broadcastInDim SEx1 ![0] column_E dst) (broadcastInDim SE ![] splat_E (constant (F := Ideal) S0 .f32 0x3F800000#32))

/-- The normalisation factor: `rsqrt (max deg 1)` where the degree is positive, zero elsewhere. -/
def disOf (dst : IVec SE 32) : FVec Ideal SN .f32 :=
  select (cmpf .ogt (degOf dst) (broadcastInDim SN ![] splat_N (constant (F := Ideal) S0 .f32 0x00000000#32)))
    (Host.rsqrt (F := Ideal) (maximumf (degOf dst) (broadcastInDim SN ![] splat_N (constant (F := Ideal) S0 .f32 0x3F800000#32))))
    (broadcastInDim SN ![] splat_N (id (constant (F := Ideal) S0 .f32 0x00000000#32)))

/-! ## One layer at an index, in the two arrangements -/

/-- The node a source or target word names when a host gather reads it: the word signed, clamped into the node range. -/
def nodeOf (w : BitVec 32) : Fin 100000 := ⟨min w.toInt.toNat (100000 - 1), by omega⟩

/-- A word is a node number. -/
def IsNode (w : BitVec 32) : Prop := 0 ≤ w.toInt ∧ w.toInt < 100000

section Layer
variable {Ci Co : Nat}

/-- Entry `(u, c)` of `X W`. -/
def xw (X : Fin 100000 → Fin Ci → EReal) (W : Fin Ci → Fin Co → EReal) (u : Fin 100000) (c : Fin Co) : EReal :=
  ∑ j : Fin Ci, X u j * W j c

/-- The layer with the scaling done per node, before and after the aggregation. -/
def layerAt (act : EReal → EReal) (srcw dstw : Fin 1700000 → BitVec 32) (dis : Fin 100000 → EReal)
    (X : Fin 100000 → Fin Ci → EReal) (W : Fin Ci → Fin Co → EReal) (b : Fin Co → EReal) (v : Fin 100000) (c : Fin Co) : EReal :=
  act ((∑ k : Fin 1700000, if (dstw k).toInt = (v.val : Int) then xw X W (nodeOf (srcw k)) c * dis (nodeOf (srcw k)) else 0) * dis v + b c)

/-- The layer with each edge's message scaled by both factors inside the aggregation. -/
def layerEdgeAt (act : EReal → EReal) (srcw dstw : Fin 1700000 → BitVec 32) (dis : Fin 100000 → EReal)
    (X : Fin 100000 → Fin Ci → EReal) (W : Fin Ci → Fin Co → EReal) (b : Fin Co → EReal) (v : Fin 100000) (c : Fin Co) : EReal :=
  act ((∑ k : Fin 1700000, if (dstw k).toInt = (v.val : Int) then
      xw X W (nodeOf (srcw k)) c * (dis (nodeOf (srcw k)) * dis (nodeOf (dstw k))) else 0) + b c)

end Layer

/-- The rectifier on the extended reals: the maximum with the zero word's value. -/
def relu (x : EReal) : EReal := max x (Ideal.ofBits .f32 0x00000000#32)

/-! ## The whole function -/

section Out
variable (x : FVec Ideal ⟨2, ![100000, 128]⟩ .f32) (ei : IVec S2xM 32) (W1 : FVec Ideal ⟨2, ![128, 128]⟩ .f32)
  (b1 : FVec Ideal ⟨1, ![128]⟩ .f32) (W2 : FVec Ideal ⟨2, ![128, 16]⟩ .f32) (b2 : FVec Ideal ⟨1, ![16]⟩ .f32)

/-- The source word of edge `k`. -/
def srcAt (k : Fin 1700000) : BitVec 32 := srcOf ei (ix1 k)
/-- The target word of edge `k`. -/
def dstAt (k : Fin 1700000) : BitVec 32 := dstOf ei (ix1 k)
/-- The normalisation factor of node `v`. -/
def disAt (v : Fin 100000) : EReal := disOf (dstOf ei) (ix1 v)

/-- The hidden layer: 128 features to 128, rectified. -/
def hiddenAt (u : Fin 100000) (j : Fin 128) : EReal :=
  layerAt relu (srcAt ei) (dstAt ei) (disAt ei) (fun u j => x (ix2 u j)) (fun j c => W1 (ix2 j c)) (fun c => b1 (ix1 c)) u j

/-- The result: the hidden features to 16 classes, not rectified. -/
def outAt (v : Fin 100000) (c : Fin 16) : EReal :=
  layerAt id (srcAt ei) (dstAt ei) (disAt ei) (hiddenAt x ei W1 b1) (fun j c => W2 (ix2 j c)) (fun c => b2 (ix1 c)) v c

/-- The result as an array. -/
def outArr : FVec Ideal ⟨2, ![100000, 16]⟩ .f32 := fun i => outAt x ei W1 b1 W2 b2 (i 0) (i 1)

theorem outArr_ix2 (v : Fin 100000) (c : Fin 16) : outArr x ei W1 b1 W2 b2 (ix2 v c) = outAt x ei W1 b1 W2 b2 v c := rfl

end Out

end Cert.Gcn

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.KEdge.lean ====
/-
  The take and the aggregation of the kernel program's host side, read at an index.

  The take gathers, for every edge, the row of the pre-scaled features that the edge's source word names: the word is
  moved up by the node count when negative, tested against the range [0, 99999], and where the test fails the row is
  filled with a fixed word. When every source word is a node number nothing is moved and nothing is filled, and the take
  at (k, j) is the feature matrix at (src k, j). The aggregation adds every taken row into the row its target word
  names, starting from zero: at (v, j) it is the sum of column j over the edges whose target is v.
-/
import proofs.«416256_j36223754174949_2_alg».proof.Proof.Gen.KernelIdeal
import proofs.«416256_j36223754174949_2_alg».proof.Proof.Spec
import proofs.«416256_j36223754174949_2_alg».proof.Proof.LibIndex
import Idealize.ShloMosaic.PureOps.Reduce
import Idealize.ShloMosaic.PureOps.Ideal.Laws

noncomputable section

open scoped BigOperators

namespace Cert.Gcn.K

open Idealize.ShloMosaic Idealize.ShloMosaic.ValueIdx
open Cert.KernelIdeal Cert.KernelIdeal.Gen

/-- The index column a take builds from the source words: a negative word moved up by the node count. -/
def takeIdx (srcw : IVec S1700000 32) : IVec S1700000x1 32 :=
  broadcastInDim S1700000x1 ![0] bcast_S1700000_S1700000x1_0
    (select (cmpi .slt srcw (broadcastInDim S1700000 ![] bcast_S_S1700000 (constantI S_ 32 0#32)))
      (addi srcw (broadcastInDim S1700000 ![] bcast_S_S1700000 (constantI S_ 32 100000#32))) srcw)

/-- The take's range test per edge: the index is at least 0 and at most 99999. -/
def takeMask (srcw : IVec S1700000 32) : IVec S1700000 1 :=
  (fun x v => Host.reduce IntOp.andi x v reducesTo_S1700000x1_S1700000_d1 h_S_)
    (andi (cmpi .sge (takeIdx srcw) (broadcastInDim S1700000x1 ![] bcast_S_S1700000x1 (constantI S_ 32 0#32)))
      (cmpi .sle (takeIdx srcw) (broadcastInDim S1700000x1 ![0, 1] bcast_S1x1_S1700000x1_0_1
        (broadcastInDim S1x1 ![1] bcast_S1_S1x1_1 (constantI S1 32 99999#32)))))
    (constantI S_ 1 1#1)

/-- The take of 128-wide rows: the gathered row where the range test holds, the fill word elsewhere. -/
def take128 (hs : FVec Ideal S100000x128 .f32) (srcw : IVec S1700000 32) : FVec Ideal S1700000x128 .f32 :=
  select (broadcastInDim S1700000x128 ![0] bcast_S1700000_S1700000x128_0 (takeMask srcw))
    (Host.gather gather_S100000x128_S1700000x1_S1700000x128_1_0_n_n_0_1_1128 hs (takeIdx srcw))
    (broadcastInDim S1700000x128 ![] bcast_S_S1700000x128 (constant (F := Ideal) S_ .f32 0x7FC00000#32))

/-- The take of 16-wide rows. -/
def take16 (hs : FVec Ideal S100000x16 .f32) (srcw : IVec S1700000 32) : FVec Ideal S1700000x16 .f32 :=
  select (broadcastInDim S1700000x16 ![0] bcast_S1700000_S1700000x16_0 (takeMask srcw))
    (Host.gather gather_S100000x16_S1700000x1_S1700000x16_1_0_n_n_0_1_116 hs (takeIdx srcw))
    (broadcastInDim S1700000x16 ![] bcast_S_S1700000x16 (constant (F := Ideal) S_ .f32 0x7FC00000#32))

/-! ## Reading the pieces at an index -/

/-- A vector laid along the first axis of an `[n, m]` rectangle reads, at `(k, j)`, the vector at `k`. -/
private theorem bcast_rows_apply {α : Type} {n m : Nat}
    (h : (⟨1, ![n]⟩ : Shape).BroadcastsInDim ⟨2, ![n, m]⟩ (![0] : Fin 1 → Fin 2))
    (v : (⟨1, ![n]⟩ : Shape).Idx → α) (k : Fin n) (j : Fin m) :
    broadcastInDim ⟨2, ![n, m]⟩ ![0] h v (ix2 k j) = v (ix1 k) := by
  simp only [broadcastInDim]
  refine congrArg v ?_
  funext a
  match a with
  | ⟨0, _⟩ =>
    apply Fin.ext
    have hk := k.isLt
    split
    · next h1 => change n = 1 at h1; show (0 : Nat) = k.val; omega
    · rfl

/-- A word that is a node number is not negative: the compare with zero gives the zero bit. -/
private theorem isNode_slt {w : BitVec 32} (h : IsNode w) : IntOp.cmpi .slt w 0#32 = 0#1 := by
  have h0 : (0#32 : BitVec 32).toInt = 0 := by decide
  have hb : w.slt 0#32 = false := by
    simp only [BitVec.slt, h0, decide_eq_false_iff_not, not_lt]; exact h.1
  show BitVec.ofBool (w.slt 0#32) = 0#1
  rw [hb]; rfl

/-- A node number is at least zero, as a signed compare. -/
private theorem isNode_sge {w : BitVec 32} (h : IsNode w) : IntOp.cmpi .sge w 0#32 = 1#1 := by
  have h0 : (0#32 : BitVec 32).toInt = 0 := by decide
  have hb : (0#32 : BitVec 32).sle w = true := by
    simp only [BitVec.sle, h0, decide_eq_true_eq]; exact h.1
  show BitVec.ofBool ((0#32 : BitVec 32).sle w) = 1#1
  rw [hb]; rfl

/-- A node number is at most 99999, as a signed compare. -/
private theorem isNode_sle {w : BitVec 32} (h : IsNode w) : IntOp.cmpi .sle w 99999#32 = 1#1 := by
  have h0 : (99999#32 : BitVec 32).toInt = 99999 := by decide
  have hb : w.sle 99999#32 = true := by
    simp only [BitVec.sle, h0, decide_eq_true_eq]; have := h.2; omega
  show BitVec.ofBool (w.sle 99999#32) = 1#1
  rw [hb]; rfl

/-- The index column at row `k` is the source word itself when that word is a node number: nothing wraps. -/
private theorem takeIdx_apply (srcw : IVec S1700000 32) (k : Fin 1700000) (z : Fin 1) (hk : IsNode (srcw (ix1 k))) :
    takeIdx srcw (ix2 k z) = srcw (ix1 k) := by
  unfold takeIdx
  rw [bcast_rows_apply, select_apply]
  have hc : cmpi .slt srcw (broadcastInDim S1700000 ![] bcast_S_S1700000 (constantI S_ 32 0#32)) (ix1 k) = 0#1 :=
    isNode_slt hk
  rw [hc, select_zero]

/-- An and-reduce of an array of one bits, from the one bit, is the one bit everywhere. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-- Where every source word is a node number the range test holds at every edge. -/
private theorem takeMask_apply (srcw : IVec S1700000 32) (hsrc : ∀ k : Fin 1700000, IsNode (srcw (ix1 k))) (k : Fin 1700000) :
    takeMask srcw (ix1 k) = 1#1 := by
  unfold takeMask
  refine reduce_andi_ones _ _ _ _ rfl (fun i => ?_) _
  rw [eq_ix2 i]
  show IntOp.andi (IntOp.cmpi .sge (takeIdx srcw (ix2 (i 0) (i 1))) 0#32)
      (IntOp.cmpi .sle (takeIdx srcw (ix2 (i 0) (i 1))) 99999#32) = 1#1
  rw [takeIdx_apply srcw (i 0) (i 1) (hsrc (i 0)), isNode_sge (hsrc (i 0)), isNode_sle (hsrc (i 0))]
  decide

/-- Where every source word is a node number the take reads row `src k`: the range test holds and nothing is filled. -/
theorem take128_apply (hs : FVec Ideal S100000x128 .f32) (srcw : IVec S1700000 32)
    (hsrc : ∀ k : Fin 1700000, IsNode (srcw (ix1 k))) (k : Fin 1700000) (j : Fin 128) :
    take128 hs srcw (ix2 k j) = hs (ix2 (nodeOf (srcw (ix1 k))) j) := by
  unfold take128
  rw [select_apply, bcast_rows_apply, takeMask_apply srcw hsrc k, select_one,
    Cert.LibIndex.gather_row_apply_of (by decide) _ rfl rfl rfl rfl rfl rfl rfl hs (takeIdx srcw) k j]
  refine congrArg (fun u : Fin 100000 => hs (ix2 u j)) (Fin.ext ?_)
  show min (takeIdx srcw (ix2 k (0 : Fin 1))).toInt.toNat (100000 - 1) = min (srcw (ix1 k)).toInt.toNat (100000 - 1)
  rw [takeIdx_apply srcw k 0 (hsrc k)]

theorem take16_apply (hs : FVec Ideal S100000x16 .f32) (srcw : IVec S1700000 32)
    (hsrc : ∀ k : Fin 1700000, IsNode (srcw (ix1 k))) (k : Fin 1700000) (j : Fin 16) :
    take16 hs srcw (ix2 k j) = hs (ix2 (nodeOf (srcw (ix1 k))) j) := by
  unfold take16
  rw [select_apply, bcast_rows_apply, takeMask_apply srcw hsrc k, select_one,
    Cert.LibIndex.gather_row_apply_of (by decide) _ rfl rfl rfl rfl rfl rfl rfl hs (takeIdx srcw) k j]
  refine congrArg (fun u : Fin 100000 => hs (ix2 u j)) (Fin.ext ?_)
  show min (takeIdx srcw (ix2 k (0 : Fin 1))).toInt.toNat (100000 - 1) = min (srcw (ix1 k)).toInt.toNat (100000 - 1)
  rw [takeIdx_apply srcw k 0 (hsrc k)]

/-- The aggregation of 128-wide rows: every update row added into the row its target word names, from zero. -/
def agg128 (dstw : IVec S1700000 32) (upd : FVec Ideal S1700000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dstw) upd

/-- The aggregation of 16-wide rows. -/
def agg16 (dstw : IVec S1700000 32) (upd : FVec Ideal S1700000x16 .f32) : FVec Ideal S100000x16 .f32 :=
  Host.scatterAdd (F := Ideal) scatter_S100000x16_S1700000x1_S1700000x16_1_0_0_1
    (broadcastInDim S100000x16 ![] bcast_S_S100000x16 (constant (F := Ideal) S_ .f32 0x00000000#32))
    (broadcastInDim S1700000x1 ![0] bcast_S1700000_S1700000x1_0 dstw) upd

/-- The aggregate at `(v, j)`: the sum of column `j` over the edges whose target word is `v`. -/
theorem agg128_apply (dstw : IVec S1700000 32) (upd : FVec Ideal S1700000x128 .f32) (v : Fin 100000) (j : Fin 128) :
    agg128 dstw upd (ix2 v j) = ∑ k : Fin 1700000, if (dstw (ix1 k)).toInt = (v.val : Int) then upd (ix2 k j) else 0 := by
  unfold agg128
  rw [Cert.LibIndex.scatterAdd_row_apply_of _ rfl rfl rfl rfl]
  have h0 : broadcastInDim S100000x128 ![] bcast_S_S100000x128 (constant (F := Ideal) S_ .f32 0x00000000#32) (ix2 v j) = 0 :=
    Ideal.ofBits_zero_f32
  rw [h0, zero_add]
  refine Finset.sum_congr rfl fun k _ => ?_
  rw [bcast_rows_apply]

theorem agg16_apply (dstw : IVec S1700000 32) (upd : FVec Ideal S1700000x16 .f32) (v : Fin 100000) (j : Fin 16) :
    agg16 dstw upd (ix2 v j) = ∑ k : Fin 1700000, if (dstw (ix1 k)).toInt = (v.val : Int) then upd (ix2 k j) else 0 := by
  unfold agg16
  rw [Cert.LibIndex.scatterAdd_row_apply_of _ rfl rfl rfl rfl]
  have h0 : broadcastInDim S100000x16 ![] bcast_S_S100000x16 (constant (F := Ideal) S_ .f32 0x00000000#32) (ix2 v j) = 0 :=
    Ideal.ofBits_zero_f32
  rw [h0, zero_add]
  refine Finset.sum_congr rfl fun k _ => ?_
  rw [bcast_rows_apply]

end Cert.Gcn.K

end
-- ==== Proof.KHost.lean ====
/-
  The kernel program's host side, read buffer by buffer.

  Between its four regions the program runs stretches of host operations. Each stretch is read here from an ARBITRARY
  valuation `W` of the buffers it starts from: the buffer an operation writes holds the operation's term of the buffers
  it reads. The two takes, the longest stretches, are read in a module of their own.
-/
import proofs.«416256_j36223754174949_2_alg».proof.Proof.Gen.KernelIdeal.Frame
import proofs.«416256_j36223754174949_2_alg».proof.Proof.Spec
import proofs.«416256_j36223754174949_2_alg».proof.Proof.KEdge
import Idealize.ShloMosaic.Lib.StableHlo.Run

set_option maxRecDepth 16384

noncomputable section

open scoped BigOperators

namespace Cert.Gcn.K

open Idealize.ShloMosaic Idealize.ShloMosaic.TcCoe Idealize.ShloMosaic.ValueIdx Idealize.SL.Sem Idealize.ShloMosaic.StableHlo
open Cert.KernelIdeal Cert.KernelIdeal.Gen

/-! ## Each stretch from an arbitrary valuation -/

section Stretches
variable (W : Valuation τ sig (Elt Ideal))

/-- The first stretch writes the source words … -/
theorem ops0_v3 : StableHlo.after hostOps0 W (Proc.devRef .tc main_v3) = srcOf (W (Proc.devRef .tc main_arg1)) := by
  after_results; rfl
/-- … the target words … -/
theorem ops0_v6 : StableHlo.after hostOps0 W (Proc.devRef .tc main_v6) = dstOf (W (Proc.devRef .tc main_arg1)) := by
  after_results; rfl
/-- … the test "the degree is positive" … -/
theorem ops0_v12 : StableHlo.after hostOps0 W (Proc.devRef .tc main_v12)
    = cmpf (F := Ideal) .ogt (degOf (dstOf (W (Proc.devRef .tc main_arg1))))
        (broadcastInDim SN ![] splat_N (constant (F := Ideal) S0 .f32 0x00000000#32)) := by
  after_results; rfl
/-- … the reciprocal square root of the degree raised to at least one … -/
theorem ops0_v15 : StableHlo.after hostOps0 W (Proc.devRef .tc main_v15)
    = Host.rsqrt (F := Ideal) (maximumf (degOf (dstOf (W (Proc.devRef .tc main_arg1))))
        (broadcastInDim SN ![] splat_N (constant (F := Ideal) S0 .f32 0x3F800000#32))) := by
  after_results; rfl
/-- … and the zero the factor takes where the degree is not positive. -/
theorem ops0_cst3 : StableHlo.after hostOps0 W (Proc.devRef .tc main_cst_3) = constant (F := Ideal) S0 .f32 0x00000000#32 := by
  after_results

/-- The second stretch selects between the two. -/
theorem ops01_v16 : StableHlo.after hostOps0_1 W (Proc.devRef .tc main_v16)
    = select (W (Proc.devRef .tc main_v12)) (W (Proc.devRef .tc main_v15))
        (broadcastInDim SN ![] splat_N (id (W (Proc.devRef .tc main_cst_3)))) := by
  after_results; rfl

/-- The third stretch makes the factor a column. -/
theorem ops02_v17 : StableHlo.after hostOps0_2 W (Proc.devRef .tc main_v17)
    = broadcastInDim S100000x1 ![0] bcast_S100000_S100000x1_0 (W (Proc.devRef .tc main_v16)) := by
  after_results

/-- … and the aggregation of what it took. -/
theorem ops11_v22 : StableHlo.after hostOps1_1 W (Proc.devRef .tc main_v22)
    = agg128 (W (Proc.devRef .tc main_v6)) (W (Proc.devRef .tc main_v19)) := by
  after_results; rfl

/-- … and its aggregation. -/
theorem ops31_v28 : StableHlo.after hostOps3_1 W (Proc.devRef .tc main_v28)
    = agg16 (W (Proc.devRef .tc main_v6)) (W (Proc.devRef .tc main_v25)) := by
  after_results; rfl

end Stretches

end Cert.Gcn.K

end
-- ==== Proof.KTake.lean ====
/-
  The two takes of the kernel program's host side, each read from an arbitrary valuation of the buffers it starts
  from: the buffer the take writes holds the take of the pre-scaled features at the source words. Read first at any
  float family (the take moves elements and never computes with them), then at the extended reals.
-/
import proofs.«416256_j36223754174949_2_alg».proof.Proof.Gen.KernelIdeal.Frame
import proofs.«416256_j36223754174949_2_alg».proof.Proof.Spec
import proofs.«416256_j36223754174949_2_alg».proof.Proof.KEdge
import Idealize.ShloMosaic.Lib.StableHlo.Run

set_option maxRecDepth 16384

noncomputable section

namespace Cert.Gcn.K

open Idealize.ShloMosaic Idealize.ShloMosaic.TcCoe Idealize.ShloMosaic.ValueIdx Idealize.SL.Sem Idealize.ShloMosaic.StableHlo
open Cert.KernelIdeal Cert.KernelIdeal.Gen

/-- Contents carried to a buffer's own type and back are the contents. -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

section AnyFamily
variable {F : FTy → Type} [FloatOps F] (W : Valuation τ sig (Elt F))

set_option maxHeartbeats 4000000 in
/-- The take after region 0, at any float family: the gathered row where the range test holds, the fill word elsewhere. -/
theorem ops1_v19_any : StableHlo.after hostOps1 W (Proc.devRef .tc main_v19)
    = select (broadcastInDim S1700000x128 ![0] bcast_S1700000_S1700000x128_0 (takeMask (W (Proc.devRef .tc main_v3))))
        (Host.gather gather_S100000x128_S1700000x1_S1700000x128_1_0_n_n_0_1_1128 (W (Proc.devRef .tc main_v18)) (takeIdx (W (Proc.devRef .tc main_v3))))
        (broadcastInDim S1700000x128 ![] bcast_S_S1700000x128 (constant (F := F) S_ .f32 0x7FC00000#32)) := by
  after_results_simp
  simp only [ofBuf_toBuf]
  refine (cast_eq _ _).trans ?_
  rfl

set_option maxHeartbeats 4000000 in
/-- The take after region 2, at any float family. -/
theorem ops3_v25_any : StableHlo.after hostOps3 W (Proc.devRef .tc main_v25)
    = select (broadcastInDim S1700000x16 ![0] bcast_S1700000_S1700000x16_0 (takeMask (W (Proc.devRef .tc main_v3))))
        (Host.gather gather_S100000x16_S1700000x1_S1700000x16_1_0_n_n_0_1_116 (W (Proc.devRef .tc main_v24)) (takeIdx (W (Proc.devRef .tc main_v3))))
        (broadcastInDim S1700000x16 ![] bcast_S_S1700000x16 (constant (F := F) S_ .f32 0x7FC00000#32)) := by
  after_results_simp
  simp only [ofBuf_toBuf]
  refine (cast_eq _ _).trans ?_
  rfl

end AnyFamily

variable (W : Valuation τ sig (Elt Ideal))

/-- The take after region 0: the rows of region 0's output at the source words. -/
theorem ops1_v19 : StableHlo.after hostOps1 W (Proc.devRef .tc main_v19)
    = take128 (W (Proc.devRef .tc main_v18)) (W (Proc.devRef .tc main_v3)) :=
  ops1_v19_any W

/-- The take after region 2: the rows of region 2's output at the source words. -/
theorem ops3_v25 : StableHlo.after hostOps3 W (Proc.devRef .tc main_v25)
    = take16 (W (Proc.devRef .tc main_v24)) (W (Proc.devRef .tc main_v3)) :=
  ops3_v25_any W

end Cert.Gcn.K

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KReg0.lean ====
/-
  The first projection, block by block.

  The region runs over twenty row blocks of 5000 rows. At row block t it reads rows 5000 t … 5000 t + 4999 of the
  feature array and of the factor column, and the whole weight, and stores into the same rows of the output array the
  product of the feature rows with the weight, each row scaled by its node's factor. Every row r of the output lies in
  row block r / 5000, so after the twenty blocks the output array holds, at (u, j), entry (u, j) of X W times the
  factor of u.
-/
import proofs.«416256_j36223754174949_2_alg».proof.Proof.Gen.KernelIdeal.Frame
import proofs.«416256_j36223754174949_2_alg».proof.Proof.Spec
import proofs.«416256_j36223754174949_2_alg».proof.Proof.LibDot
import proofs.«416256_j36223754174949_2_alg».proof.Proof.LibKeepdims
import Idealize.ShloMosaic.Lib.Pipeline.Value

noncomputable section

open scoped BigOperators

namespace Cert.Gcn.K

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-block access. -/
theorem off00_r0 : (![0, 0] : Fin 2 → Nat) = fun _ => 0 := funext fun a => by fin_cases a <;> rfl

/-- Entry (p, q) of one block's result: row p of the feature block against column q of the weight, times row p's factor. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, Cert.LibDot.matmul_zero_apply _ rfl rfl rfl rfl rfl rfl, broadcastTo_a1_ab_apply, shapeCast_self, shapeCast_self]
  simp only [truncf_apply]

/-- The block indices over the grid: the row block of point t is t on the three row-blocked windows; the weight is one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The function the output array ends holding. -/
def lin0 (X : S100000x128.Idx → EReal) (W : S128x128.Idx → EReal) (D : S100000x1.Idx → EReal) : S100000x128.Idx → EReal :=
  fun i => (∑ k : Fin 128, X (ix2 (i 0) k) * W (ix2 k (i 1))) * D (ix2 (i 0) (0 : Fin 1))

/-- Row p of point t's feature block is row 5000 t + p of the feature array. -/
theorem iblk0_0_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = V c main_arg0 i := by
  obtain ⟨e0, e1, -⟩ := blockIndex0 t
  unfold iblk0
  rw [View.read_apply]
  show V c main_arg0 _ = V c main_arg0 i
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weight's one block is the weight array. -/
theorem iblk0_1_apply (c : Dev nD) (t : Fin cfg0.N) (k : Fin 128) (q : Fin 128) :
    (iblk0 V c 1 t : Vec Ideal S128x128 .f32) (ix2 k q) = V c main_arg2 (ix2 k q) := by
  obtain ⟨-, -, e0, e1, -⟩ := blockIndex0 t
  unfold iblk0
  rw [View.read_apply]
  show V c main_arg2 _ = V c main_arg2 (ix2 k q)
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Row p of point t's factor block is row 5000 t + p of the factor column. -/
theorem iblk0_2_apply (c : Dev nD) (t : Fin cfg0.N) (p : Fin 5000) (i : S100000x1.Idx)
    (h0 : (i 0).val = t.val * 5000 + p.val) :
    (iblk0 V c 2 t : Vec Ideal S5000x1 .f32) (ix2 p (0 : Fin 1)) = V c main_v17 i := by
  obtain ⟨-, -, -, -, e0, e1, -⟩ := blockIndex0 t
  unfold iblk0
  rw [View.read_apply]
  show V c main_v17 _ = V c main_v17 i
  congr 1
  funext a
  apply Fin.ext
  match a with
  | ⟨0, _⟩ => show win0_2.index t (0 : Fin 2) * 5000 + 1 * p.val = (i 0).val; rw [e0, h0]; omega
  | ⟨1, _⟩ => show win0_2.index t (1 : Fin 2) * 1 + 1 * (0 : Fin 1).val = (i 1).val; rw [e1]; have h1 : (i 1).val < 1 := idx2_lt1 i; show 0 * 1 + 1 * 0 = (i 1).val; omega

/-- What point t writes back is block t of lin0 of the three arrays. -/
theorem flushed0_eq (c : Dev nD) (t : Fin cfg0.N) :
    (dat0 (F := Ideal) V c).flushed 3 t
      = ((cfg0.win 3).blk t).view.read (Elt Ideal) (lin0 (V c main_arg0) (V c main_arg2) (V c main_v17)) := by
  show (cfg0.win 3).cut (grid0.coords t) ((dat0 V c).after 3 t) = _
  rw [after0_3]
  unfold out0_3
  rw [View.canon_unit_zero off00_r0]
  simp only [View.ld_unit_zero (S := S5000x128) off00_r0, View.ld_unit_zero (S := S128x128) off00_r0, View.ld_unit_zero (S := S5000x1) off00_r0]
  obtain ⟨-, -, -, -, -, -, e0, e1⟩ := blockIndex0 t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q)
    = lin0 (V c main_arg0) (V c main_arg2) (V c main_v17) (((cfg0.win 3).blk t).view.emb (ix2 p q))
  rw [pay0_apply]
  unfold lin0
  have r0 : ((((cfg0.win 3).blk t).view.emb (ix2 p q)) 0).val = t.val * 5000 + p.val := by
    show win0_3.index t (0 : Fin 2) * 5000 + 1 * p.val = _; rw [e0]; omega
  have r1 : ((((cfg0.win 3).blk t).view.emb (ix2 p q)) 1).val = q.val := by
    show win0_3.index t (1 : Fin 2) * 128 + 1 * q.val = _; rw [e1]; omega
  rw [iblk0_2_apply V c t p (ix2 ((((cfg0.win 3).blk t).view.emb (ix2 p q)) 0) (0 : Fin 1)) r0]
  congr 1
  refine Finset.sum_congr rfl fun k _ => ?_
  rw [iblk0_0_apply V c t p k (ix2 ((((cfg0.win 3).blk t).view.emb (ix2 p q)) 0) k) r0 rfl, iblk0_1_apply V c t k q]
  congr 2
  funext a
  match a with
  | ⟨0, _⟩ => rfl
  | ⟨1, _⟩ => exact Fin.ext r1.symm

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row r of the output array lies in the block of point r / 5000. -/
theorem cover0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  have ht : (i 0).val / 5000 < cfg0.N := by rw [hN]; omega
  refine ⟨⟨(i 0).val / 5000, ht⟩, flush0_3 _, ?_⟩
  rw [mem_blk0]
  obtain ⟨-, -, -, -, -, -, e0, e1⟩ := blockIndex0 ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]
    omega

/-- After the twenty row blocks the output array is lin0 of the three arrays. -/
theorem final0 (c : Dev nD) :
    (dat0 (F := Ideal) V c).arrAt 3 cfg0.N = lin0 (V c main_arg0) (V c main_arg2) (V c main_v17) :=
  (dat0 V c).arrAt_eq_of_cover 3 _ (fun t _ => flushed0_eq V c t) cover0

/-- Region 0 (first projection, pre-scaled): after its twenty row blocks the output array holds, at (u, j),
    entry (u, j) of x W1 times node u's factor. -/
theorem region0_arr (c : Dev nD) (u : Fin 100000) (j : Fin 128) :
    (dat0 (F := Ideal) V c).arrAt 3 cfg0.N (ix2 u j)
      = xw (fun u j => V c main_arg0 (ix2 u j)) (fun j c' => V c main_arg2 (ix2 j c')) u j * V c main_v17 (ix2 u (0 : Fin 1)) := by
  rw [final0]
  rfl

end Cert.Gcn.K

end
-- ==== Proof.Rd.lean ====
/-
  A matrix and a vector of extended reals read at coordinates.
-/
import Idealize.ShloMosaic.PureOps.Ideal
import Idealize.ShloMosaic.Lib.ValueIdx

noncomputable section

namespace Cert.Gcn

open Idealize.ShloMosaic Idealize.ShloMosaic.ValueIdx

/-- Entry `(u, j)` of a matrix. -/
abbrev rd2 {a b : Nat} (x : FVec Ideal ⟨2, ![a, b]⟩ .f32) (u : Fin a) (j : Fin b) : EReal := x (ix2 u j)

/-- Entry `j` of a vector. -/
abbrev rd1 {a : Nat} (x : FVec Ideal ⟨1, ![a]⟩ .f32) (j : Fin a) : EReal := x (ix1 j)

end Cert.Gcn

end
-- ==== Proof.KReg1.lean ====
/-
  The first post-scaling, block by block.

  The region runs over twenty row blocks of 5000 rows. At row block t it reads rows 5000 t … 5000 t + 4999 of the
  aggregate and of the factor column, and the whole bias vector, and stores into the same rows of the output array the
  aggregate scaled row by row by its node's factor, plus the bias, rectified. Every row r of the output lies in row
  block r / 5000, so after the twenty blocks the output array holds, at (u, j), max (A[u, j] · dis u + b j) 0.
-/
import proofs.«416256_j36223754174949_2_alg».proof.Proof.Gen.KernelIdeal.Frame
import proofs.«416256_j36223754174949_2_alg».proof.Proof.Spec
import proofs.«416256_j36223754174949_2_alg».proof.Proof.Rd
import proofs.«416256_j36223754174949_2_alg».proof.Proof.LibKeepdims
import Idealize.ShloMosaic.Lib.Pipeline.Value
import Idealize.ShloMosaic.Lib.ValueLayout

noncomputable section

open scoped BigOperators

namespace Cert.Gcn.K

open Idealize.ShloMosaic Idealize.ShloMosaic.TcCoe Idealize.ShloMosaic.ValueIdx Idealize.SL.Sem
open Cert.KernelIdeal Cert.KernelIdeal.Gen

/-! ## The body's arithmetic at an index -/

private theorem zeros2 : (![0, 0] : Fin 2 → Nat) = fun _ => 0 := funext fun a => by fin_cases a <;> rfl
private theorem zeros1 : (![0] : Fin 1 → Nat) = fun _ => 0 := funext fun a => by fin_cases a <;> rfl

/-- The payload at `(p, q)`: the aggregate entry times row `p`'s factor, plus the bias of column `q`, rectified. -/
private theorem pay1_apply (x0 : FVec Ideal S5000x128 .f32) (x2 : FVec Ideal S5000x1 .f32) (x7 : FVec Ideal S128 .f32)
    (p : Fin 5000) (q : Fin 128) :
    k1_pay1 (F := Ideal) x0 x2 x7 (ix2 p q) = relu (x0 (ix2 p q) * x2 (ix2 p (0 : Fin 1)) + x7 (ix1 q)) := by
  unfold k1_pay1
  simp only [shapeCast_self]
  rw [maximumf_apply, addf_apply, mulf_apply, broadcast_apply, broadcastTo_a1_ab_apply, broadcastTo_1b_ab_apply,
    shapeCast_a_1a_apply]
  rfl

/-- What the body leaves in the output block at `(p, q)`, from the three input blocks. -/
private theorem out1_apply (x0 : Vec Ideal S5000x128 .f32) (x1 : Vec Ideal S128 .f32) (x2 : Vec Ideal S5000x1 .f32)
    (p : Fin 5000) (q : Fin 128) :
    out1_3 (F := Ideal) x0 x1 x2 (ix2 p q) = relu (x0 (ix2 p q) * x2 (ix2 p (0 : Fin 1)) + x1 (ix1 q)) := by
  unfold out1_3
  rw [View.canon_unit_zero zeros2]
  simp only [View.ld_unit_zero (S := S5000x128) zeros2, View.ld_unit_zero (S := S5000x1) zeros2,
    View.ld_unit_zero (S := S128) zeros1]
  exact pay1_apply x0 x2 x1 p q

/-- The printed index maps over the grid: the row windows sit at block `t`, the bias at block 0. -/
private theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-! ## The blocks at a point, read off the arrays -/

/-- The array row that row `p` of block `t` is: `5000 t + p`. -/
private def row1 (t : Fin cfg1.N) (p : Fin 5000) : Fin 100000 :=
  ⟨t.val * 5000 + p.val, by have := t.isLt; have hN : cfg1.N = 20 := N_1; have := p.isLt; omega⟩

/-- The aggregate's block at point `t` is rows `5000 t …` of the aggregate. -/
private theorem blk1_0_apply (c : Dev nD) (t : Fin cfg1.N) (p : Fin 5000) (q : Fin 128) :
    iblk1 (F := Ideal) V c 0 t (ix2 p q) = V c main_v22 (ix2 (row1 t p) q) := by
  obtain ⟨e0, e1, -⟩ := idx1 t
  have h : ((cfg1.win 0).blk t).view.emb (ix2 p q) = ix2 (row1 t p) q := by
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * q.val = q.val; rw [e1]; omega
  show V c main_v22 (((cfg1.win 0).blk t).view.emb (ix2 p q)) = V c main_v22 (ix2 (row1 t p) q)
  rw [h]

/-- The bias window's one block is the bias. -/
private theorem blk1_1_apply (c : Dev nD) (t : Fin cfg1.N) (q : Fin 128) :
    iblk1 (F := Ideal) V c 1 t (ix1 q) = V c main_arg3 (ix1 q) := by
  obtain ⟨-, -, e0, -⟩ := idx1 t
  have h : ((cfg1.win 1).blk t).view.emb (ix1 q) = ix1 q := by
    funext a; apply Fin.ext
    match a with
    | ⟨0, _⟩ => show win1_1.index t (0 : Fin 1) * 128 + 1 * q.val = q.val; rw [e0]; omega
  show V c main_arg3 (((cfg1.win 1).blk t).view.emb (ix1 q)) = V c main_arg3 (ix1 q)
  rw [h]

/-- The factor column's block at point `t` is rows `5000 t …` of the column. -/
private theorem blk1_2_apply (c : Dev nD) (t : Fin cfg1.N) (p : Fin 5000) :
    iblk1 (F := Ideal) V c 2 t (ix2 p (0 : Fin 1)) = V c main_v17 (ix2 (row1 t p) (0 : Fin 1)) := by
  obtain ⟨-, -, -, e0, e1, -⟩ := idx1 t
  have h : ((cfg1.win 2).blk t).view.emb (ix2 p (0 : Fin 1)) = ix2 (row1 t p) (0 : Fin 1) := by
    funext a; apply Fin.ext
    match a with
    | ⟨0, _⟩ => show win1_2.index t (0 : Fin 2) * 5000 + 1 * p.val = t.val * 5000 + p.val; rw [e0]; omega
    | ⟨1, _⟩ => show win1_2.index t (1 : Fin 2) * 1 + 1 * 0 = 0; rw [e1]
  show V c main_v17 (((cfg1.win 2).blk t).view.emb (ix2 p (0 : Fin 1))) = V c main_v17 (ix2 (row1 t p) (0 : Fin 1))
  rw [h]

/-- Where the output block's entry `(p, q)` sits in the array. -/
private theorem emb1_3 (t : Fin cfg1.N) (p : Fin 5000) (q : Fin 128) :
    ((cfg1.win 3).blk t).view.emb (ix2 p q) = ix2 (row1 t p) q := by
  obtain ⟨-, -, -, -, -, e0, e1⟩ := idx1 t
  funext a; apply Fin.ext
  match a with
  | ⟨0, _⟩ => show win1_3.index t (0 : Fin 2) * 5000 + 1 * p.val = t.val * 5000 + p.val; rw [e0]; omega
  | ⟨1, _⟩ => show win1_3.index t (1 : Fin 2) * 128 + 1 * q.val = q.val; rw [e1]; omega

/-! ## From the blocks to the array -/

/-- The array the region leaves: at `(u, j)` the aggregate times node `u`'s factor, plus the bias, rectified. -/
private def G1 (c : Dev nD) : Buf (Elt Ideal) ((c : Thread nD τ).loc main_v23) := fun i =>
  relu (rd2 (V c main_v22) (i 0 : Fin 100000) (i 1 : Fin 128) * rd2 (V c main_v17) (i 0 : Fin 100000) (0 : Fin 1)
    + rd1 (V c main_arg3) (i 1 : Fin 128))

/-- What point `t` writes back is block `t` of that array. -/
private theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  funext y
  obtain ⟨p, q, rfl⟩ : ∃ (p : Fin 5000) (q : Fin 128), y = ix2 p q := ⟨y 0, y 1, eq_ix2 (n0 := 5000) (n1 := 128) y⟩
  show out1_3 (iblk1 V c 0 t) (iblk1 V c 1 t) (iblk1 V c 2 t) (ix2 p q) = G1 V c (((cfg1.win 3).blk t).view.emb (ix2 p q))
  rw [out1_apply, blk1_0_apply, blk1_1_apply, blk1_2_apply, emb1_3]
  rfl

/-- An index of the array is in point `t`'s block iff each coordinate is in the block's range on its axis. -/
private theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v23).slice (win1_3.rect t)).set ↔ _
  rw [View.set_slice_whole, Rect.mem_set_unit]
  exact Iff.rfl

/-- Every row `r` is in the block of point `r / 5000`, and every point writes back. -/
private theorem cover1 (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, e0, e1⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- Region 1 (post-scale, bias, rectifier): at `(u, j)`, the aggregate times node `u`'s factor, plus the bias, rectified. -/
theorem region1_arr (c : Dev nD) (u : Fin 100000) (j : Fin 128) :
    (dat1 (F := Ideal) V c).arrAt 3 cfg1.N (ix2 u j)
      = relu (rd2 (V c main_v22) u j * rd2 (V c main_v17) u (0 : Fin 1) + rd1 (V c main_arg3) j) := by
  have h := (dat1 (F := Ideal) V c).arrAt_eq_of_cover 3 (G1 V c) (fun t _ => flushed1_eq V c t) cover1
  rw [h]
  rfl

end Cert.Gcn.K

end
-- ==== Proof.KReg2.lean ====
/-
  The second projection, block by block.

  The region runs over twenty row blocks of 5000 rows. At row block t it reads rows 5000 t … 5000 t + 4999 of the
  hidden-feature array and of the factor column, and the whole 128 × 16 weight, and stores into the same rows of the
  output array the product of the feature rows with the weight, each row scaled by its node's factor. Every row r of
  the output lies in row block r / 5000, so after the twenty blocks the output array holds, at (u, j), entry (u, j) of
  H W times the factor of u.
-/
import proofs.«416256_j36223754174949_2_alg».proof.Proof.Gen.KernelIdeal.Frame
import proofs.«416256_j36223754174949_2_alg».proof.Proof.Spec
import proofs.«416256_j36223754174949_2_alg».proof.Proof.LibDot
import proofs.«416256_j36223754174949_2_alg».proof.Proof.LibKeepdims
import Idealize.ShloMosaic.Lib.Pipeline.Value

noncomputable section

open scoped BigOperators

namespace Cert.Gcn.K

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-block access. -/
theorem off00_r2 : (![0, 0] : Fin 2 → Nat) = fun _ => 0 := funext fun a => by fin_cases a <;> rfl

/-- Entry (p, q) of one block's result: row p of the feature block against column q of the weight, times row p's factor. -/
theorem pay2_apply (x0 : Vec Ideal S5000x128 .f32) (x1 : Vec Ideal S128x16 .f32) (x2 : Vec Ideal S5000x1 .f32)
    (p : Fin 5000) (q : Fin 16) :
    k2_pay1 x0 x1 x2 (ix2 p q) = (∑ k : Fin 128, x0 (ix2 p k) * x1 (ix2 k q)) * x2 (ix2 p (0 : Fin 1)) := by
  unfold k2_pay1
  rw [mulf_apply, Cert.LibDot.matmul_zero_apply _ rfl rfl rfl rfl rfl rfl, broadcastTo_a1_ab_apply, shapeCast_self, shapeCast_self]
  simp only [truncf_apply, shapeCast_self]

/-- The block indices over the grid: the row block of point t is t on the three row-blocked windows; the weight is one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The function the output array ends holding. -/
def lin2 (X : S100000x128.Idx → EReal) (W : S128x16.Idx → EReal) (D : S100000x1.Idx → EReal) : S100000x16.Idx → EReal :=
  fun i => (∑ k : Fin 128, X (ix2 (i 0) k) * W (ix2 k (i 1))) * D (ix2 (i 0) (0 : Fin 1))

/-- Row p of point t's feature block is row 5000 t + p of the hidden-feature array. -/
theorem iblk2_0_apply (c : Dev nD) (t : Fin cfg2.N) (p : Fin 5000) (k : Fin 128) (i : S100000x128.Idx)
    (h0 : (i 0).val = t.val * 5000 + p.val) (h1 : (i 1).val = k.val) :
    (iblk2 V c 0 t : Vec Ideal S5000x128 .f32) (ix2 p k) = V c main_v23 i := by
  obtain ⟨e0, e1, -⟩ := blockIndex2 t
  unfold iblk2
  rw [View.read_apply]
  show V c main_v23 _ = V c main_v23 i
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The weight's one block is the weight array. -/
theorem iblk2_1_apply (c : Dev nD) (t : Fin cfg2.N) (k : Fin 128) (q : Fin 16) :
    (iblk2 V c 1 t : Vec Ideal S128x16 .f32) (ix2 k q) = V c main_arg4 (ix2 k q) := by
  obtain ⟨-, -, e0, e1, -⟩ := blockIndex2 t
  unfold iblk2
  rw [View.read_apply]
  show V c main_arg4 _ = V c main_arg4 (ix2 k q)
  congr 1
  funext a
  apply Fin.ext
  match a with
  | ⟨0, _⟩ => show win2_1.index t (0 : Fin 2) * 128 + 1 * k.val = k.val; rw [e0]; omega
  | ⟨1, _⟩ => show win2_1.index t (1 : Fin 2) * 16 + 1 * q.val = q.val; rw [e1]; omega

/-- Row p of point t's factor block is row 5000 t + p of the factor column. -/
theorem iblk2_2_apply (c : Dev nD) (t : Fin cfg2.N) (p : Fin 5000) (i : S100000x1.Idx)
    (h0 : (i 0).val = t.val * 5000 + p.val) :
    (iblk2 V c 2 t : Vec Ideal S5000x1 .f32) (ix2 p (0 : Fin 1)) = V c main_v17 i := by
  obtain ⟨-, -, -, -, e0, e1, -⟩ := blockIndex2 t
  unfold iblk2
  rw [View.read_apply]
  show V c main_v17 _ = V c main_v17 i
  congr 1
  funext a
  apply Fin.ext
  match a with
  | ⟨0, _⟩ => show win2_2.index t (0 : Fin 2) * 5000 + 1 * p.val = (i 0).val; rw [e0, h0]; omega
  | ⟨1, _⟩ => show win2_2.index t (1 : Fin 2) * 1 + 1 * (0 : Fin 1).val = (i 1).val; rw [e1]; have h1 : (i 1).val < 1 := idx2_lt1 i; show 0 * 1 + 1 * 0 = (i 1).val; omega

/-- What point t writes back is block t of lin2 of the three arrays. -/
theorem flushed2_eq (c : Dev nD) (t : Fin cfg2.N) :
    (dat2 (F := Ideal) V c).flushed 3 t
      = ((cfg2.win 3).blk t).view.read (Elt Ideal) (lin2 (V c main_v23) (V c main_arg4) (V c main_v17)) := by
  show (cfg2.win 3).cut (grid2.coords t) ((dat2 V c).after 3 t) = _
  rw [after2_3]
  unfold out2_3
  rw [View.canon_unit_zero off00_r2]
  simp only [View.ld_unit_zero (S := S5000x128) off00_r2, View.ld_unit_zero (S := S128x16) off00_r2, View.ld_unit_zero (S := S5000x1) off00_r2]
  obtain ⟨-, -, -, -, -, -, e0, e1⟩ := blockIndex2 t
  funext y
  obtain ⟨p, q, rfl⟩ : ∃ (p : Fin 5000) (q : Fin 16), y = ix2 p q := ⟨y 0, y 1, eq_ix2 y⟩
  show k2_pay1 (iblk2 V c 0 t) (iblk2 V c 1 t) (iblk2 V c 2 t) (ix2 p q)
    = lin2 (V c main_v23) (V c main_arg4) (V c main_v17) (((cfg2.win 3).blk t).view.emb (ix2 p q))
  rw [pay2_apply]
  unfold lin2
  have r0 : ((((cfg2.win 3).blk t).view.emb (ix2 p q)) 0).val = t.val * 5000 + p.val := by
    show win2_3.index t (0 : Fin 2) * 5000 + 1 * p.val = _; rw [e0]; omega
  have r1 : ((((cfg2.win 3).blk t).view.emb (ix2 p q)) 1).val = q.val := by
    show win2_3.index t (1 : Fin 2) * 16 + 1 * q.val = _; rw [e1]; omega
  rw [iblk2_2_apply V c t p (ix2 ((((cfg2.win 3).blk t).view.emb (ix2 p q)) 0) (0 : Fin 1)) r0]
  congr 1
  refine Finset.sum_congr rfl fun k _ => ?_
  rw [iblk2_0_apply V c t p k (ix2 ((((cfg2.win 3).blk t).view.emb (ix2 p q)) 0) k) r0 rfl, iblk2_1_apply V c t k q]
  congr 2
  funext a
  match a with
  | ⟨0, _⟩ => rfl
  | ⟨1, _⟩ => exact Fin.ext r1.symm

/-- An index of the output array is in point t's block iff each coordinate is in the block's range on its axis. -/
theorem mem_blk2 (t : Fin cfg2.N) (i : S100000x16.Idx) :
    i ∈ ((cfg2.win 3).blk t).view.set ↔ ∀ a : Fin 2, win2_3.index t a * S5000x16.size a ≤ (i a).val
      ∧ (i a).val < win2_3.index t a * S5000x16.size a + S5000x16.size a := by
  show i ∈ ((View.whole main_v24).slice (win2_3.rect t)).set ↔ _
  rw [View.set_slice_whole, Rect.mem_set_unit]
  exact Iff.rfl

/-- Row r of the output array lies in the block of point r / 5000. -/
theorem cover2 (i : S100000x16.Idx) :
    ∃ t : Fin cfg2.N, (cfg2.win 3).flush t = true ∧ i ∈ ((cfg2.win 3).blk t).view.set := by
  have hi0 : (i 0).val < 100000 := idx2_lt0 i
  have hi1 : (i 1).val < 16 := idx2_lt1 i
  have hN : cfg2.N = 20 := N_2
  have ht : (i 0).val / 5000 < cfg2.N := by rw [hN]; omega
  refine ⟨⟨(i 0).val / 5000, ht⟩, flush2_3 _, ?_⟩
  rw [mem_blk2]
  obtain ⟨-, -, -, -, -, -, e0, e1⟩ := blockIndex2 ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_3.index ⟨(i 0).val / 5000, ht⟩ (1 : Fin 2) * 16 ≤ (i 1).val
      ∧ (i 1).val < win2_3.index ⟨(i 0).val / 5000, ht⟩ (1 : Fin 2) * 16 + 16
    rw [e1]
    omega

/-- After the twenty row blocks the output array is lin2 of the three arrays. -/
theorem final2 (c : Dev nD) :
    (dat2 (F := Ideal) V c).arrAt 3 cfg2.N = lin2 (V c main_v23) (V c main_arg4) (V c main_v17) :=
  (dat2 V c).arrAt_eq_of_cover 3 _ (fun t _ => flushed2_eq V c t) cover2

/-- Region 2 (second projection, pre-scaled): at (u, j), entry (u, j) of h W2 times node u's factor. -/
theorem region2_arr (c : Dev nD) (u : Fin 100000) (j : Fin 16) :
    (dat2 (F := Ideal) V c).arrAt 3 cfg2.N (ix2 u j)
      = xw (fun u j => V c main_v23 (ix2 u j)) (fun j c' => V c main_arg4 (ix2 j c')) u j * V c main_v17 (ix2 u (0 : Fin 1)) := by
  rw [final2]
  rfl

end Cert.Gcn.K

end
-- ==== Proof.KReg3.lean ====
/-
  The second post-scaling, block by block.

  The region runs over twenty row blocks of 5000 rows. At row block t it reads rows 5000 t … 5000 t + 4999 of the
  16-wide aggregate and of the factor column, and the whole bias vector, and stores into the same rows of the output
  array the aggregate scaled row by row by its node's factor, plus the bias; there is no rectifier in the last layer.
  Every row r of the output lies in row block r / 5000, so after the twenty blocks the output array holds, at (u, j),
  A[u, j] · dis u + b j.
-/
import proofs.«416256_j36223754174949_2_alg».proof.Proof.Gen.KernelIdeal.Frame
import proofs.«416256_j36223754174949_2_alg».proof.Proof.Spec
import proofs.«416256_j36223754174949_2_alg».proof.Proof.Rd
import proofs.«416256_j36223754174949_2_alg».proof.Proof.LibKeepdims
import Idealize.ShloMosaic.Lib.Pipeline.Value
import Idealize.ShloMosaic.Lib.ValueLayout

noncomputable section

open scoped BigOperators

namespace Cert.Gcn.K

open Idealize.ShloMosaic Idealize.ShloMosaic.TcCoe Idealize.ShloMosaic.ValueIdx Idealize.SL.Sem
open Cert.KernelIdeal Cert.KernelIdeal.Gen

/-! ## The body's arithmetic at an index -/

private theorem zeros2 : (![0, 0] : Fin 2 → Nat) = fun _ => 0 := funext fun a => by fin_cases a <;> rfl
private theorem zeros1 : (![0] : Fin 1 → Nat) = fun _ => 0 := funext fun a => by fin_cases a <;> rfl

/-- The payload at `(p, q)`: the aggregate entry times row `p`'s factor, plus the bias of column `q`. -/
private theorem pay3_apply (x0 : FVec Ideal S5000x16 .f32) (x2 : FVec Ideal S5000x1 .f32) (x7 : FVec Ideal S16 .f32)
    (p : Fin 5000) (q : Fin 16) :
    k3_pay1 (F := Ideal) x0 x2 x7 (ix2 p q) = x0 (ix2 p q) * x2 (ix2 p (0 : Fin 1)) + x7 (ix1 q) := by
  unfold k3_pay1
  simp only [shapeCast_self]
  rw [addf_apply, mulf_apply, broadcastTo_a1_ab_apply, broadcastTo_1b_ab_apply, shapeCast_a_1a_apply]

/-- What the body leaves in the output block at `(p, q)`, from the three input blocks. -/
private theorem out3_apply (x0 : Vec Ideal S5000x16 .f32) (x1 : Vec Ideal S16 .f32) (x2 : Vec Ideal S5000x1 .f32)
    (p : Fin 5000) (q : Fin 16) :
    out3_3 (F := Ideal) x0 x1 x2 (ix2 p q) = x0 (ix2 p q) * x2 (ix2 p (0 : Fin 1)) + x1 (ix1 q) := by
  unfold out3_3
  rw [View.canon_unit_zero zeros2]
  simp only [View.ld_unit_zero (S := S5000x16) zeros2, View.ld_unit_zero (S := S5000x1) zeros2,
    View.ld_unit_zero (S := S16) zeros1]
  exact pay3_apply x0 x2 x1 p q

/-- The printed index maps over the grid: the row windows sit at block `t`, the bias at block 0. -/
private theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-! ## The blocks at a point, read off the arrays -/

/-- The array row that row `p` of block `t` is: `5000 t + p`. -/
private def row3 (t : Fin cfg3.N) (p : Fin 5000) : Fin 100000 :=
  ⟨t.val * 5000 + p.val, by have := t.isLt; have hN : cfg3.N = 20 := N_3; have := p.isLt; omega⟩

/-- The aggregate's block at point `t` is rows `5000 t …` of the aggregate. -/
private theorem blk3_0_apply (c : Dev nD) (t : Fin cfg3.N) (p : Fin 5000) (q : Fin 16) :
    iblk3 (F := Ideal) V c 0 t (ix2 p q) = V c main_v28 (ix2 (row3 t p) q) := by
  obtain ⟨e0, e1, -⟩ := idx3 t
  have h : ((cfg3.win 0).blk t).view.emb (ix2 p q) = ix2 (row3 t p) q := by
    funext a; apply Fin.ext
    match a with
    | ⟨0, _⟩ => show win3_0.index t (0 : Fin 2) * 5000 + 1 * p.val = t.val * 5000 + p.val; rw [e0]; omega
    | ⟨1, _⟩ => show win3_0.index t (1 : Fin 2) * 16 + 1 * q.val = q.val; rw [e1]; omega
  show V c main_v28 (((cfg3.win 0).blk t).view.emb (ix2 p q)) = V c main_v28 (ix2 (row3 t p) q)
  rw [h]

/-- The bias window's one block is the bias. -/
private theorem blk3_1_apply (c : Dev nD) (t : Fin cfg3.N) (q : Fin 16) :
    iblk3 (F := Ideal) V c 1 t (ix1 q) = V c main_arg5 (ix1 q) := by
  obtain ⟨-, -, e0, -⟩ := idx3 t
  have h : ((cfg3.win 1).blk t).view.emb (ix1 q) = ix1 q := by
    funext a; apply Fin.ext
    match a with
    | ⟨0, _⟩ => show win3_1.index t (0 : Fin 1) * 16 + 1 * q.val = q.val; rw [e0]; omega
  show V c main_arg5 (((cfg3.win 1).blk t).view.emb (ix1 q)) = V c main_arg5 (ix1 q)
  rw [h]

/-- The factor column's block at point `t` is rows `5000 t …` of the column. -/
private theorem blk3_2_apply (c : Dev nD) (t : Fin cfg3.N) (p : Fin 5000) :
    iblk3 (F := Ideal) V c 2 t (ix2 p (0 : Fin 1)) = V c main_v17 (ix2 (row3 t p) (0 : Fin 1)) := by
  obtain ⟨-, -, -, e0, e1, -⟩ := idx3 t
  have h : ((cfg3.win 2).blk t).view.emb (ix2 p (0 : Fin 1)) = ix2 (row3 t p) (0 : Fin 1) := by
    funext a; apply Fin.ext
    match a with
    | ⟨0, _⟩ => show win3_2.index t (0 : Fin 2) * 5000 + 1 * p.val = t.val * 5000 + p.val; rw [e0]; omega
    | ⟨1, _⟩ => show win3_2.index t (1 : Fin 2) * 1 + 1 * 0 = 0; rw [e1]
  show V c main_v17 (((cfg3.win 2).blk t).view.emb (ix2 p (0 : Fin 1))) = V c main_v17 (ix2 (row3 t p) (0 : Fin 1))
  rw [h]

/-- Where the output block's entry `(p, q)` sits in the array. -/
private theorem emb3_3 (t : Fin cfg3.N) (p : Fin 5000) (q : Fin 16) :
    ((cfg3.win 3).blk t).view.emb (ix2 p q) = ix2 (row3 t p) q := by
  obtain ⟨-, -, -, -, -, e0, e1⟩ := idx3 t
  funext a; apply Fin.ext
  match a with
  | ⟨0, _⟩ => show win3_3.index t (0 : Fin 2) * 5000 + 1 * p.val = t.val * 5000 + p.val; rw [e0]; omega
  | ⟨1, _⟩ => show win3_3.index t (1 : Fin 2) * 16 + 1 * q.val = q.val; rw [e1]; omega

/-! ## From the blocks to the array -/

/-- The array the region leaves: at `(u, j)` the aggregate times node `u`'s factor, plus the bias. -/
private def G3 (c : Dev nD) : Buf (Elt Ideal) ((c : Thread nD τ).loc main_v29) := fun i =>
  rd2 (V c main_v28) (i 0 : Fin 100000) (i 1 : Fin 16) * rd2 (V c main_v17) (i 0 : Fin 100000) (0 : Fin 1)
    + rd1 (V c main_arg5) (i 1 : Fin 16)

/-- What point `t` writes back is block `t` of that array. -/
private theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  funext y
  obtain ⟨p, q, rfl⟩ : ∃ (p : Fin 5000) (q : Fin 16), y = ix2 p q := ⟨y 0, y 1, eq_ix2 (n0 := 5000) (n1 := 16) y⟩
  show out3_3 (iblk3 V c 0 t) (iblk3 V c 1 t) (iblk3 V c 2 t) (ix2 p q) = G3 V c (((cfg3.win 3).blk t).view.emb (ix2 p q))
  rw [out3_apply, blk3_0_apply, blk3_1_apply, blk3_2_apply, emb3_3]
  rfl

/-- An index of the array is in point `t`'s block iff each coordinate is in the block's range on its axis. -/
private theorem mem_blk3 (t : Fin cfg3.N) (i : S100000x16.Idx) :
    i ∈ ((cfg3.win 3).blk t).view.set ↔ ∀ a : Fin 2, win3_3.index t a * S5000x16.size a ≤ (i a).val
      ∧ (i a).val < win3_3.index t a * S5000x16.size a + S5000x16.size a := by
  show i ∈ ((View.whole main_v29).slice (win3_3.rect t)).set ↔ _
  rw [View.set_slice_whole, Rect.mem_set_unit]
  exact Iff.rfl

/-- Every row `r` is in the block of point `r / 5000`, and every point writes back. -/
private theorem cover3 (i : S100000x16.Idx) :
    ∃ t : Fin cfg3.N, (cfg3.win 3).flush t = true ∧ i ∈ ((cfg3.win 3).blk t).view.set := by
  have hN : cfg3.N = 20 := N_3
  have hi0 : (i 0).val < 100000 := (i 0).isLt
  have hi1 : (i 1).val < 16 := (i 1).isLt
  obtain ⟨t, ht⟩ : ∃ t : Fin cfg3.N, t.val = (i 0).val / 5000 := ⟨⟨(i 0).val / 5000, by omega⟩, rfl⟩
  obtain ⟨-, -, -, -, -, e0, e1⟩ := idx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 16 ≤ (i 1).val ∧ (i 1).val < win3_3.index t (1 : Fin 2) * 16 + 16
    rw [e1]; omega

/-- Region 3 (post-scale and bias, no rectifier): at `(u, j)`, the aggregate times node `u`'s factor, plus the bias. -/
theorem region3_arr (c : Dev nD) (u : Fin 100000) (j : Fin 16) :
    (dat3 (F := Ideal) V c).arrAt 3 cfg3.N (ix2 u j)
      = rd2 (V c main_v28) u j * rd2 (V c main_v17) u (0 : Fin 1) + rd1 (V c main_arg5) j := by
  have h := (dat3 (F := Ideal) V c).arrAt_eq_of_cover 3 (G3 V c) (fun t _ => flushed3_eq V c t) cover3
  rw [h]
  rfl

end Cert.Gcn.K

end
-- ==== Proof.KWalk.lean ====
/-
  The kernel program's run walked from the launch to the result.

  The boundary valuations of the generated fold are read in order. Three things are carried from the first stretches
  to the end — the source words, the target words and the column of normalisation factors — beside the argument
  arrays; each region's output array is the region's function of the arrays it found; each take and aggregation is
  read at an index. At the end the result array holds the specification's function.
-/
import proofs.«416256_j36223754174949_2_alg».proof.Proof.KHost
import proofs.«416256_j36223754174949_2_alg».proof.Proof.KTake
import proofs.«416256_j36223754174949_2_alg».proof.Proof.KReg0
import proofs.«416256_j36223754174949_2_alg».proof.Proof.KReg1
import proofs.«416256_j36223754174949_2_alg».proof.Proof.KReg2
import proofs.«416256_j36223754174949_2_alg».proof.Proof.KReg3
import proofs.«416256_j36223754174949_2_alg».proof.Proof.Rd

set_option maxRecDepth 16384

noncomputable section

open scoped BigOperators

namespace Cert.Gcn.K

open Idealize.ShloMosaic Idealize.ShloMosaic.TcCoe Idealize.ShloMosaic.ValueIdx Idealize.SL.Sem Idealize.ShloMosaic.StableHlo
open Cert.KernelIdeal Cert.KernelIdeal.Gen

/-- A buffer that no operation of a stretch writes is unchanged by the stretch. -/
local macro "unwritten " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The factor column read at `(u, 0)` is the factor of node `u`. -/
theorem col_apply (d : FVec Ideal S100000 .f32) (u : Fin 100000) :
    broadcastInDim S100000x1 ![0] bcast_S100000_S100000x1_0 d (ix2 u (0 : Fin 1)) = d (ix1 u) :=
  broadcastInDim_apply _ _ d (ix2 u (0 : Fin 1)) (ix1 u) (fun a => by
    obtain rfl : a = (0 : Fin 1) := Subsingleton.elim _ _
    exact (if_neg (by decide)).symm)

variable (m : (ℓ : Loc nD τ sig) → Buf (Elt Ideal) ℓ) (ρ : Dev nD → PrngReg) (c : Dev nD)

/-- What every boundary from region 0's entry on holds: the edge words, the factor column, the later arguments. -/
structure Carried (W : Valuation τ sig (Elt Ideal)) : Prop where
  src : W (Proc.devRef .tc main_v3) = srcOf (m ((c : Thread nD τ).loc main_arg1))
  dst : W (Proc.devRef .tc main_v6) = dstOf (m ((c : Thread nD τ).loc main_arg1))
  dis : W (Proc.devRef .tc main_v17) = broadcastInDim S100000x1 ![0] bcast_S100000_S100000x1_0 (disOf (dstOf (m ((c : Thread nD τ).loc main_arg1))))
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)

variable {m c}

/-- What is carried passes unchanged through the stretch `hostOps1`, which writes none of those buffers. -/
theorem Carried.ops1 {W : Valuation τ sig (Elt Ideal)} (h : Carried m c W) : Carried m c (StableHlo.after hostOps1 W) where
  src := (by unwritten hostOps1 : StableHlo.after hostOps1 W (Proc.devRef .tc main_v3) = W (Proc.devRef .tc main_v3)).trans h.src
  dst := (by unwritten hostOps1 : StableHlo.after hostOps1 W (Proc.devRef .tc main_v6) = W (Proc.devRef .tc main_v6)).trans h.dst
  dis := (by unwritten hostOps1 : StableHlo.after hostOps1 W (Proc.devRef .tc main_v17) = W (Proc.devRef .tc main_v17)).trans h.dis
  a3 := (by unwritten hostOps1 : StableHlo.after hostOps1 W (Proc.devRef .tc main_arg3) = W (Proc.devRef .tc main_arg3)).trans h.a3
  a4 := (by unwritten hostOps1 : StableHlo.after hostOps1 W (Proc.devRef .tc main_arg4) = W (Proc.devRef .tc main_arg4)).trans h.a4
  a5 := (by unwritten hostOps1 : StableHlo.after hostOps1 W (Proc.devRef .tc main_arg5) = W (Proc.devRef .tc main_arg5)).trans h.a5

/-- What is carried passes unchanged through the stretch `hostOps1_1`, which writes none of those buffers. -/
theorem Carried.ops11 {W : Valuation τ sig (Elt Ideal)} (h : Carried m c W) : Carried m c (StableHlo.after hostOps1_1 W) where
  src := (by unwritten hostOps1_1 : StableHlo.after hostOps1_1 W (Proc.devRef .tc main_v3) = W (Proc.devRef .tc main_v3)).trans h.src
  dst := (by unwritten hostOps1_1 : StableHlo.after hostOps1_1 W (Proc.devRef .tc main_v6) = W (Proc.devRef .tc main_v6)).trans h.dst
  dis := (by unwritten hostOps1_1 : StableHlo.after hostOps1_1 W (Proc.devRef .tc main_v17) = W (Proc.devRef .tc main_v17)).trans h.dis
  a3 := (by unwritten hostOps1_1 : StableHlo.after hostOps1_1 W (Proc.devRef .tc main_arg3) = W (Proc.devRef .tc main_arg3)).trans h.a3
  a4 := (by unwritten hostOps1_1 : StableHlo.after hostOps1_1 W (Proc.devRef .tc main_arg4) = W (Proc.devRef .tc main_arg4)).trans h.a4
  a5 := (by unwritten hostOps1_1 : StableHlo.after hostOps1_1 W (Proc.devRef .tc main_arg5) = W (Proc.devRef .tc main_arg5)).trans h.a5

/-- What is carried passes unchanged through the stretch `hostOps3`, which writes none of those buffers. -/
theorem Carried.ops3 {W : Valuation τ sig (Elt Ideal)} (h : Carried m c W) : Carried m c (StableHlo.after hostOps3 W) where
  src := (by unwritten hostOps3 : StableHlo.after hostOps3 W (Proc.devRef .tc main_v3) = W (Proc.devRef .tc main_v3)).trans h.src
  dst := (by unwritten hostOps3 : StableHlo.after hostOps3 W (Proc.devRef .tc main_v6) = W (Proc.devRef .tc main_v6)).trans h.dst
  dis := (by unwritten hostOps3 : StableHlo.after hostOps3 W (Proc.devRef .tc main_v17) = W (Proc.devRef .tc main_v17)).trans h.dis
  a3 := (by unwritten hostOps3 : StableHlo.after hostOps3 W (Proc.devRef .tc main_arg3) = W (Proc.devRef .tc main_arg3)).trans h.a3
  a4 := (by unwritten hostOps3 : StableHlo.after hostOps3 W (Proc.devRef .tc main_arg4) = W (Proc.devRef .tc main_arg4)).trans h.a4
  a5 := (by unwritten hostOps3 : StableHlo.after hostOps3 W (Proc.devRef .tc main_arg5) = W (Proc.devRef .tc main_arg5)).trans h.a5

/-- What is carried passes unchanged through the stretch `hostOps3_1`, which writes none of those buffers. -/
theorem Carried.ops31 {W : Valuation τ sig (Elt Ideal)} (h : Carried m c W) : Carried m c (StableHlo.after hostOps3_1 W) where
  src := (by unwritten hostOps3_1 : StableHlo.after hostOps3_1 W (Proc.devRef .tc main_v3) = W (Proc.devRef .tc main_v3)).trans h.src
  dst := (by unwritten hostOps3_1 : StableHlo.after hostOps3_1 W (Proc.devRef .tc main_v6) = W (Proc.devRef .tc main_v6)).trans h.dst
  dis := (by unwritten hostOps3_1 : StableHlo.after hostOps3_1 W (Proc.devRef .tc main_v17) = W (Proc.devRef .tc main_v17)).trans h.dis
  a3 := (by unwritten hostOps3_1 : StableHlo.after hostOps3_1 W (Proc.devRef .tc main_arg3) = W (Proc.devRef .tc main_arg3)).trans h.a3
  a4 := (by unwritten hostOps3_1 : StableHlo.after hostOps3_1 W (Proc.devRef .tc main_arg4) = W (Proc.devRef .tc main_arg4)).trans h.a4
  a5 := (by unwritten hostOps3_1 : StableHlo.after hostOps3_1 W (Proc.devRef .tc main_arg5) = W (Proc.devRef .tc main_arg5)).trans h.a5

variable {ρ}

/-- … and through region 0: the factor column is an input window (its array ends as it was found), the others are not
    among the region's arrays. -/
theorem Carried.exit0 (h : Carried m c (W3 m ρ c)) : Carried m c (W4 m ρ c) where
  src := (W4_of_ne m ρ c main_v3 (by decide)).trans h.src
  dst := (W4_of_ne m ρ c main_v6 (by decide)).trans h.dst
  dis := ((W4_arr m ρ c 2).trans (((dat0 (V3 m ρ) c).arrAt_in 2 rfl _).trans (A_eq0 (V3 m ρ) c 2))).trans h.dis
  a3 := (W4_of_ne m ρ c main_arg3 (by decide)).trans h.a3
  a4 := (W4_of_ne m ρ c main_arg4 (by decide)).trans h.a4
  a5 := (W4_of_ne m ρ c main_arg5 (by decide)).trans h.a5

/-- … and through region 1: the factor column is an input window (its array ends as it was found), the others are not
    among the region's arrays. -/
theorem Carried.exit1 (h : Carried m c (W6 m ρ c)) : Carried m c (W7 m ρ c) where
  src := (W7_of_ne m ρ c main_v3 (by decide)).trans h.src
  dst := (W7_of_ne m ρ c main_v6 (by decide)).trans h.dst
  dis := ((W7_arr m ρ c 2).trans (((dat1 (V6 m ρ) c).arrAt_in 2 rfl _).trans (A_eq1 (V6 m ρ) c 2))).trans h.dis
  a3 := ((W7_arr m ρ c 1).trans (((dat1 (V6 m ρ) c).arrAt_in 1 rfl _).trans (A_eq1 (V6 m ρ) c 1))).trans h.a3
  a4 := (W7_of_ne m ρ c main_arg4 (by decide)).trans h.a4
  a5 := (W7_of_ne m ρ c main_arg5 (by decide)).trans h.a5

/-- … and through region 2: the factor column is an input window (its array ends as it was found), the others are not
    among the region's arrays. -/
theorem Carried.exit2 (h : Carried m c (W7 m ρ c)) : Carried m c (W8 m ρ c) where
  src := (W8_of_ne m ρ c main_v3 (by decide)).trans h.src
  dst := (W8_of_ne m ρ c main_v6 (by decide)).trans h.dst
  dis := ((W8_arr m ρ c 2).trans (((dat2 (V7 m ρ) c).arrAt_in 2 rfl _).trans (A_eq2 (V7 m ρ) c 2))).trans h.dis
  a3 := (W8_of_ne m ρ c main_arg3 (by decide)).trans h.a3
  a4 := ((W8_arr m ρ c 1).trans (((dat2 (V7 m ρ) c).arrAt_in 1 rfl _).trans (A_eq2 (V7 m ρ) c 1))).trans h.a4
  a5 := (W8_of_ne m ρ c main_arg5 (by decide)).trans h.a5

variable (m ρ c)

/-! ## The walk -/

/-- At region 0's entry the first argument is as launched … -/
theorem W3_arg0 : W3 m ρ c (Proc.devRef .tc main_arg0) = (m ((c : Thread nD τ).loc main_arg0)) :=
  (by unwritten hostOps0_2 : W3 m ρ c (Proc.devRef .tc main_arg0) = W2 m ρ c (Proc.devRef .tc main_arg0)).trans
    ((by unwritten hostOps0_1 : W2 m ρ c (Proc.devRef .tc main_arg0) = W1 m ρ c (Proc.devRef .tc main_arg0)).trans
      (by unwritten hostOps0 : W1 m ρ c (Proc.devRef .tc main_arg0) = W0 m ρ c (Proc.devRef .tc main_arg0)))
/-- … and so are the first weight matrix … -/
theorem W3_arg2 : W3 m ρ c (Proc.devRef .tc main_arg2) = (m ((c : Thread nD τ).loc main_arg2)) :=
  (by unwritten hostOps0_2 : W3 m ρ c (Proc.devRef .tc main_arg2) = W2 m ρ c (Proc.devRef .tc main_arg2)).trans
    ((by unwritten hostOps0_1 : W2 m ρ c (Proc.devRef .tc main_arg2) = W1 m ρ c (Proc.devRef .tc main_arg2)).trans
      (by unwritten hostOps0 : W1 m ρ c (Proc.devRef .tc main_arg2) = W0 m ρ c (Proc.devRef .tc main_arg2)))
/-- … the first bias … -/
theorem W3_arg3 : W3 m ρ c (Proc.devRef .tc main_arg3) = (m ((c : Thread nD τ).loc main_arg3)) :=
  (by unwritten hostOps0_2 : W3 m ρ c (Proc.devRef .tc main_arg3) = W2 m ρ c (Proc.devRef .tc main_arg3)).trans
    ((by unwritten hostOps0_1 : W2 m ρ c (Proc.devRef .tc main_arg3) = W1 m ρ c (Proc.devRef .tc main_arg3)).trans
      (by unwritten hostOps0 : W1 m ρ c (Proc.devRef .tc main_arg3) = W0 m ρ c (Proc.devRef .tc main_arg3)))
/-- … the second weight matrix … -/
theorem W3_arg4 : W3 m ρ c (Proc.devRef .tc main_arg4) = (m ((c : Thread nD τ).loc main_arg4)) :=
  (by unwritten hostOps0_2 : W3 m ρ c (Proc.devRef .tc main_arg4) = W2 m ρ c (Proc.devRef .tc main_arg4)).trans
    ((by unwritten hostOps0_1 : W2 m ρ c (Proc.devRef .tc main_arg4) = W1 m ρ c (Proc.devRef .tc main_arg4)).trans
      (by unwritten hostOps0 : W1 m ρ c (Proc.devRef .tc main_arg4) = W0 m ρ c (Proc.devRef .tc main_arg4)))
/-- … and the second bias. -/
theorem W3_arg5 : W3 m ρ c (Proc.devRef .tc main_arg5) = (m ((c : Thread nD τ).loc main_arg5)) :=
  (by unwritten hostOps0_2 : W3 m ρ c (Proc.devRef .tc main_arg5) = W2 m ρ c (Proc.devRef .tc main_arg5)).trans
    ((by unwritten hostOps0_1 : W2 m ρ c (Proc.devRef .tc main_arg5) = W1 m ρ c (Proc.devRef .tc main_arg5)).trans
      (by unwritten hostOps0 : W1 m ρ c (Proc.devRef .tc main_arg5) = W0 m ρ c (Proc.devRef .tc main_arg5)))

/-- The launch contents of the edge list. -/
theorem W0_arg1 : W0 m ρ c (Proc.devRef .tc main_arg1) = (m ((c : Thread nD τ).loc main_arg1)) := rfl

/-- The source words at region 0's entry. -/
theorem W3_src : W3 m ρ c (Proc.devRef .tc main_v3) = srcOf (m ((c : Thread nD τ).loc main_arg1)) := by
  refine (by unwritten hostOps0_2 : W3 m ρ c (Proc.devRef .tc main_v3) = W2 m ρ c (Proc.devRef .tc main_v3)).trans ?_
  refine (by unwritten hostOps0_1 : W2 m ρ c (Proc.devRef .tc main_v3) = W1 m ρ c (Proc.devRef .tc main_v3)).trans ?_
  refine (ops0_v3 (W0 m ρ c)).trans ?_
  rw [W0_arg1]

/-- The target words at region 0's entry. -/
theorem W3_dst : W3 m ρ c (Proc.devRef .tc main_v6) = dstOf (m ((c : Thread nD τ).loc main_arg1)) := by
  refine (by unwritten hostOps0_2 : W3 m ρ c (Proc.devRef .tc main_v6) = W2 m ρ c (Proc.devRef .tc main_v6)).trans ?_
  refine (by unwritten hostOps0_1 : W2 m ρ c (Proc.devRef .tc main_v6) = W1 m ρ c (Proc.devRef .tc main_v6)).trans ?_
  refine (ops0_v6 (W0 m ρ c)).trans ?_
  rw [W0_arg1]

/-- The factor the first two stretches compute is the specification's. -/
theorem W2_v16 : W2 m ρ c (Proc.devRef .tc main_v16) = disOf (dstOf (m ((c : Thread nD τ).loc main_arg1))) := by
  refine (ops01_v16 (W1 m ρ c)).trans ?_
  rw [show W1 m ρ c (Proc.devRef .tc main_v12) = _ from ops0_v12 (W0 m ρ c),
    show W1 m ρ c (Proc.devRef .tc main_v15) = _ from ops0_v15 (W0 m ρ c),
    show W1 m ρ c (Proc.devRef .tc main_cst_3) = _ from ops0_cst3 (W0 m ρ c), W0_arg1]
  rfl

/-- The factor column at region 0's entry. -/
theorem W3_dis : W3 m ρ c (Proc.devRef .tc main_v17)
    = broadcastInDim S100000x1 ![0] bcast_S100000_S100000x1_0 (disOf (dstOf (m ((c : Thread nD τ).loc main_arg1)))) := by
  refine (ops02_v17 (W2 m ρ c)).trans ?_
  rw [W2_v16]

/-- What is carried holds at region 0's entry. -/
theorem carried_W3 : Carried m c (W3 m ρ c) :=
  ⟨W3_src m ρ c, W3_dst m ρ c, W3_dis m ρ c, W3_arg3 m ρ c, W3_arg4 m ρ c, W3_arg5 m ρ c⟩

section Values
variable (hsrc : ∀ k, IsNode (srcAt (m ((c : Thread nD τ).loc main_arg1)) k))
include hsrc

/-- Region 0's output at `(u, j)`: entry `(u, j)` of `x W1` times node `u`'s factor. -/
theorem pre1_value (u : Fin 100000) (j : Fin 128) :
    rd2 (W4 m ρ c (Proc.devRef .tc main_v18)) u j
      = xw (fun u j => (m ((c : Thread nD τ).loc main_arg0)) (ix2 u j)) (fun j c' => (m ((c : Thread nD τ).loc main_arg2)) (ix2 j c')) u j * disAt (m ((c : Thread nD τ).loc main_arg1)) u := by
  refine (congrFun (W4_arr m ρ c 3) (ix2 u j)).trans ((region0_arr (V3 m ρ) c u j).trans ?_)
  rw [show V3 m ρ c main_arg0 = _ from W3_arg0 m ρ c, show V3 m ρ c main_arg2 = _ from W3_arg2 m ρ c,
    show V3 m ρ c main_v17 = _ from W3_dis m ρ c, col_apply]
  rfl

/-- The take after region 0 at `(k, j)`: region 0's output in the row of edge `k`'s source. -/
theorem take1_value (k : Fin 1700000) (j : Fin 128) :
    rd2 (W5 m ρ c (Proc.devRef .tc main_v19)) k j = rd2 (W4 m ρ c (Proc.devRef .tc main_v18)) (nodeOf (srcAt (m ((c : Thread nD τ).loc main_arg1)) k)) j := by
  have C4 : Carried m c (W4 m ρ c) := (carried_W3 m ρ c).exit0
  refine (congrFun (ops1_v19 (W4 m ρ c)) (ix2 k j)).trans ?_
  rw [C4.src]
  exact take128_apply (W4 m ρ c (Proc.devRef .tc main_v18)) (srcOf (m ((c : Thread nD τ).loc main_arg1))) hsrc k j

/-- The first aggregate at `(u, j)`. -/
theorem agg1_value (u : Fin 100000) (j : Fin 128) :
    rd2 (W6 m ρ c (Proc.devRef .tc main_v22)) u j
      = ∑ k : Fin 1700000, if (dstAt (m ((c : Thread nD τ).loc main_arg1)) k).toInt = (u.val : Int) then rd2 (W5 m ρ c (Proc.devRef .tc main_v19)) k j else 0 := by
  have C5 : Carried m c (W5 m ρ c) := ((carried_W3 m ρ c).exit0).ops1
  refine (congrFun (ops11_v22 (W5 m ρ c)) (ix2 u j)).trans ?_
  rw [C5.dst]
  exact agg128_apply (dstOf (m ((c : Thread nD τ).loc main_arg1))) (W5 m ρ c (Proc.devRef .tc main_v19)) u j

/-- The hidden features, region 1's output at `(u, j)`. -/
theorem hidden_value (u : Fin 100000) (j : Fin 128) :
    rd2 (W7 m ρ c (Proc.devRef .tc main_v23)) u j = hiddenAt (m ((c : Thread nD τ).loc main_arg0)) (m ((c : Thread nD τ).loc main_arg1)) (m ((c : Thread nD τ).loc main_arg2)) (m ((c : Thread nD τ).loc main_arg3)) u j := by
  have C6 : Carried m c (W6 m ρ c) := (((carried_W3 m ρ c).exit0).ops1).ops11
  refine (congrFun (W7_arr m ρ c 3) (ix2 u j)).trans ((region1_arr (V6 m ρ) c u j).trans ?_)
  unfold hiddenAt layerAt
  refine congrArg relu (congrArg₂ (· + ·) (congrArg₂ (· * ·) ?_ ?_) ?_)
  · refine (agg1_value m ρ c hsrc u j).trans (Finset.sum_congr rfl fun k _ => ?_)
    rw [take1_value m ρ c hsrc k j, pre1_value m ρ c hsrc (nodeOf (srcAt (m ((c : Thread nD τ).loc main_arg1)) k)) j]
  · show W6 m ρ c (Proc.devRef .tc main_v17) (ix2 u (0 : Fin 1)) = _
    rw [C6.dis, col_apply]
    rfl
  · show W6 m ρ c (Proc.devRef .tc main_arg3) (ix1 j) = _
    rw [C6.a3]

/-- Region 2's output at `(u, j)`: entry `(u, j)` of `h W2` times node `u`'s factor. -/
theorem pre2_value (u : Fin 100000) (j : Fin 16) :
    rd2 (W8 m ρ c (Proc.devRef .tc main_v24)) u j
      = xw (hiddenAt (m ((c : Thread nD τ).loc main_arg0)) (m ((c : Thread nD τ).loc main_arg1)) (m ((c : Thread nD τ).loc main_arg2)) (m ((c : Thread nD τ).loc main_arg3))) (fun j c' => (m ((c : Thread nD τ).loc main_arg4)) (ix2 j c')) u j * disAt (m ((c : Thread nD τ).loc main_arg1)) u := by
  have C7 : Carried m c (W7 m ρ c) := ((((carried_W3 m ρ c).exit0).ops1).ops11).exit1
  refine (congrFun (W8_arr m ρ c 3) (ix2 u j)).trans ((region2_arr (V7 m ρ) c u j).trans ?_)
  rw [show (fun (u : Fin 100000) (j : Fin 128) => V7 m ρ c main_v23 (ix2 u j)) = hiddenAt (m ((c : Thread nD τ).loc main_arg0)) (m ((c : Thread nD τ).loc main_arg1)) (m ((c : Thread nD τ).loc main_arg2)) (m ((c : Thread nD τ).loc main_arg3)) from
      funext fun u => funext fun j => hidden_value m ρ c hsrc u j,
    show V7 m ρ c main_arg4 = _ from C7.a4, show V7 m ρ c main_v17 = _ from C7.dis, col_apply]
  rfl

/-- The take after region 2 at `(k, j)`. -/
theorem take2_value (k : Fin 1700000) (j : Fin 16) :
    rd2 (W9 m ρ c (Proc.devRef .tc main_v25)) k j = rd2 (W8 m ρ c (Proc.devRef .tc main_v24)) (nodeOf (srcAt (m ((c : Thread nD τ).loc main_arg1)) k)) j := by
  have C8 : Carried m c (W8 m ρ c) := (((((carried_W3 m ρ c).exit0).ops1).ops11).exit1).exit2
  refine (congrFun (ops3_v25 (W8 m ρ c)) (ix2 k j)).trans ?_
  rw [C8.src]
  exact take16_apply (W8 m ρ c (Proc.devRef .tc main_v24)) (srcOf (m ((c : Thread nD τ).loc main_arg1))) hsrc k j

/-- The second aggregate at `(v, j)`. -/
theorem agg2_value (v : Fin 100000) (j : Fin 16) :
    rd2 (W10 m ρ c (Proc.devRef .tc main_v28)) v j
      = ∑ k : Fin 1700000, if (dstAt (m ((c : Thread nD τ).loc main_arg1)) k).toInt = (v.val : Int) then rd2 (W9 m ρ c (Proc.devRef .tc main_v25)) k j else 0 := by
  have C9 : Carried m c (W9 m ρ c) := ((((((carried_W3 m ρ c).exit0).ops1).ops11).exit1).exit2).ops3
  refine (congrFun (ops31_v28 (W9 m ρ c)) (ix2 v j)).trans ?_
  rw [C9.dst]
  exact agg16_apply (dstOf (m ((c : Thread nD τ).loc main_arg1))) (W9 m ρ c (Proc.devRef .tc main_v25)) v j

/-- THE RESULT: region 3's output at `(v, c')` is the specification's function of the arguments. -/
theorem kernel_value (v : Fin 100000) (c' : Fin 16) :
    W11 m ρ c (Proc.devRef .tc main_v29) (ix2 v c') = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) v c' := by
  have C10 : Carried m c (W10 m ρ c) := (((((((carried_W3 m ρ c).exit0).ops1).ops11).exit1).exit2).ops3).ops31
  refine (congrFun (W11_arr m ρ c 3) (ix2 v c')).trans ((region3_arr (V10 m ρ) c v c').trans ?_)
  unfold outAt layerAt
  rw [id_eq]
  refine congrArg₂ (· + ·) (congrArg₂ (· * ·) ?_ ?_) ?_
  · refine (agg2_value m ρ c hsrc v c').trans (Finset.sum_congr rfl fun k _ => ?_)
    rw [take2_value m ρ c hsrc k c', pre2_value m ρ c hsrc (nodeOf (srcAt (m ((c : Thread nD τ).loc main_arg1)) k)) c']
  · show W10 m ρ c (Proc.devRef .tc main_v17) (ix2 v (0 : Fin 1)) = _
    rw [C10.dis, col_apply]
    rfl
  · show W10 m ρ c (Proc.devRef .tc main_arg5) (ix1 c') = _
    rw [C10.a5]

end Values

end Cert.Gcn.K

end
-- ==== Proof.Algebra.lean ====
/-
  The one algebraic law of the certificate. On the extended reals multiplication is associative and commutative, and a
  factor `d` with `0 ≤ d < ⊤` distributes over a finite sum (an infinite or a negative factor would not: `⊤ + ⊥` is `⊥`).
  So scaling every message of an aggregation by the target node's factor is scaling the aggregate.
-/
import proofs.«416256_j36223754174949_2_alg».proof.Proof.Spec

noncomputable section

open scoped BigOperators

namespace Cert.Gcn

/-- A factor in `[0, ⊤)` distributes over a sum of two extended reals. -/
theorem add_mul_of_nonneg_ne_top (x y d : EReal) (hd0 : 0 ≤ d) (hdt : d ≠ ⊤) : (x + y) * d = x * d + y * d :=
  EReal.right_distrib_of_nonneg_of_ne_top hd0 hdt x y

/-- A factor `d` with `0 ≤ d < ⊤` moves out of a finite sum of extended reals. -/
theorem sum_ite_mul {K : Type*} [Fintype K] (p : K → Prop) [DecidablePred p] (a : K → EReal) (d : EReal)
    (hd0 : 0 ≤ d) (hdt : d ≠ ⊤) :
    (∑ k, if p k then a k * d else 0) = (∑ k, if p k then a k else 0) * d := by
  classical
  have key : ∀ s : Finset K, (∑ k ∈ s, if p k then a k * d else 0) = (∑ k ∈ s, if p k then a k else 0) * d := by
    intro s
    induction s using Finset.induction_on with
    | empty => simp
    | insert i s hi ih =>
      rw [Finset.sum_insert hi, Finset.sum_insert hi, ih, add_mul_of_nonneg_ne_top _ _ d hd0 hdt]
      by_cases hp : p i
      · rw [if_pos hp, if_pos hp]
      · rw [if_neg hp, if_neg hp, zero_mul]
  exact key Finset.univ

/-- A target word that is node `v`'s number names node `v`. -/
theorem nodeOf_eq_of_toInt {w : BitVec 32} {v : Fin 100000} (h : w.toInt = (v.val : Int)) : nodeOf w = v := by
  have hv := v.isLt
  apply Fin.ext
  simp only [nodeOf]
  omega

/-- The two arrangements of a layer agree when every factor lies in `[0, ⊤)`: inside the sum the edge's target is
    `v`, so its message carries `dis v` as a last factor, and that factor moves out of the sum. -/
theorem layerEdgeAt_eq_layerAt {Ci Co : Nat} (act : EReal → EReal) (srcw dstw : Fin 1700000 → BitVec 32)
    (dis : Fin 100000 → EReal) (hd0 : ∀ v, 0 ≤ dis v) (hdt : ∀ v, dis v ≠ ⊤)
    (X : Fin 100000 → Fin Ci → EReal) (W : Fin Ci → Fin Co → EReal) (b : Fin Co → EReal) (v : Fin 100000) (c : Fin Co) :
    layerEdgeAt act srcw dstw dis X W b v c = layerAt act srcw dstw dis X W b v c := by
  unfold layerEdgeAt layerAt
  refine congrArg act (congrArg (fun s => s + b c) ?_)
  rw [← sum_ite_mul _ _ (dis v) (hd0 v) (hdt v)]
  refine Finset.sum_congr rfl fun k _ => ?_
  by_cases hk : (dstw k).toInt = (v.val : Int)
  · rw [if_pos hk, if_pos hk, nodeOf_eq_of_toInt hk, mul_assoc]
  · rw [if_neg hk, if_neg hk]

end Cert.Gcn

end
-- ==== Proof.LibVecGather.lean ====
/-
  A host gather of scalars out of a vector, one start index per result element, read at an element.
-/
import Idealize.ShloMosaic.PureOps.Ideal
import Idealize.ShloMosaic.Lib.ValueIdx

noncomputable section

namespace Cert.LibVecGather

open Idealize.ShloMosaic Idealize.ShloMosaic.ValueIdx

variable {α : Type}

/-- The dimension numbers of a gather of scalars out of a vector: operand `[N]`, start indices `[R, 1]` (one
    element number per result element), result `[R]`; the operand's one axis is collapsed and indexed, there is no
    offset axis, the slice is one element. The conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather with the record above, read at `k`: the operand index is, on the one axis, the clamped start
    (the start index `idx[k, 0]` read signed) plus a zero batching coordinate plus a zero offset coordinate. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (k : Fin R) :
    Host.gather (vecGatherDims N R wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (vecGatherDims N R wf).start (ix1 k) idx 0 + (vecGatherDims N R wf).batchCoord (ix1 k) 0
    + (vecGatherDims N R wf).offCoord (ix1 k) 0 = _
  -- no batching axis; axis 0 is collapsed, so it is not a kept axis and its offset coordinate is zero
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map, at position 0: the start reads the start indices at (k, 0)
  unfold GatherDims.start
  rw [dif_pos (show (0 : Fin 1) ∈ (vecGatherDims N R wf).startIndexMap from List.mem_singleton.mpr rfl)]
  have hsi : (vecGatherDims N R wf).siIdx (ix1 k) ⟨List.idxOf (0 : Fin 1) (vecGatherDims N R wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- THE VECTOR GATHER READ AT `k`: operand `[N]`, start indices `[R, 1]`, result `[R]`; the operand's one axis is
    collapsed and indexed, the slice is one element. Element `k` is the operand at the start index `idx[k, 0]`, read
    signed and clamped into `[0, N − 1]`. Stated for any dimension numbers whose fields are those of such a gather
    (a printed record's are, each by `rfl`). -/
theorem gather_vec_apply_of {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (k : Fin R) :
    Host.gather d x idx (ix1 k) = x (ix1 ⟨min (idx (ix2 k (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_vec_apply hN wf x idx k

end Cert.LibVecGather

end
-- ==== Proof.RefHidden.lean ====
/-
  The reference's first layer, read stage by stage at an index.

  The product x W1 at (u, j) is a sum over the 128 input features. Every edge k gathers the row of that product at its
  source and the normalisation factor at its source and at its target; since both words are node numbers the gathers
  read exactly those nodes. The message of edge k at column j is the gathered entry times the product of the two
  factors; the scatter adds the messages of the edges whose target is u, from zero; then the bias and the rectifier.
  That is the layer with each message scaled inside the aggregation, and the one algebraic law of the certificate turns
  it into the arrangement of the specification.
-/
import proofs.«416256_j36223754174949_2_alg».proof.Proof.RefRead
import proofs.«416256_j36223754174949_2_alg».proof.Proof.Spec
import proofs.«416256_j36223754174949_2_alg».proof.Proof.Algebra
import proofs.«416256_j36223754174949_2_alg».proof.Proof.LibIndex
import proofs.«416256_j36223754174949_2_alg».proof.Proof.LibVecGather
import proofs.«416256_j36223754174949_2_alg».proof.Proof.LibDot

noncomputable section

open scoped BigOperators

namespace Cert.Gcn.Ref

open Idealize.ShloMosaic Idealize.ShloMosaic.ValueIdx
open Cert.ReferenceIdeal Cert.ReferenceIdeal.Read

/-! ## The edge words and the normalisation factor are the specification's -/

/-- The reference's source words are the specification's. -/
theorem v3_eq (x1 : IVec S2x1600000 32) : val_main_v3 (F := Ideal) x1 = srcOf x1 := rfl
/-- The reference's target words are the specification's. -/
theorem v6_eq (x1 : IVec S2x1600000 32) : val_main_v6 (F := Ideal) x1 = dstOf x1 := rfl
/-- The factor the first layer reads is the specification's. -/
theorem v17_eq (x1 : IVec S2x1600000 32) : val_main_v17 (F := Ideal) x1 = disOf (dstOf x1) := rfl
/-- The factor the second layer reads is the same one. -/
theorem v60_eq (x1 : IVec S2x1600000 32) : val_main_v60 (F := Ideal) x1 = disOf (dstOf x1) := rfl

/-! ## A word that is a node number is read by a gather as that node -/

/-- A gather's start index is the word moved up by the node count when it is negative; a node number is not
    negative, so the word comes back unchanged. -/
theorem wrap_eq_self {w : BitVec 32} (h : IsNode w) :
    Scalar.select (IntOp.cmpi .slt w 0#32) (IntOp.addi w 100000#32) w = w := by
  have hs : w.slt 0#32 = false := by
    have h0 := h.1
    have hz : (0#32 : BitVec 32).toInt = 0 := by decide
    unfold BitVec.slt
    exact decide_eq_false (by omega)
  have hc : IntOp.cmpi .slt w 0#32 = 0#1 := by
    show BitVec.ofBool (w.slt 0#32) = 0#1
    rw [hs]; rfl
  rw [hc]
  exact select_zero _ _

/-- The clamped node of a word equal to `w'` is `nodeOf w'`. -/
theorem node_congr {w w' : BitVec 32} (h : w = w') (p : min w.toInt.toNat (100000 - 1) < 100000) :
    (⟨min w.toInt.toNat (100000 - 1), p⟩ : Fin 100000) = nodeOf w' := by
  subst h; rfl

/-! ## Index arithmetic of the layout operations -/

private theorem idx_v23 (k : Fin 1700000) : idx_main_v23 (ix2 k (0 : Fin 1)) = ix1 k := by
  funext a; match a with | ⟨0, _⟩ => rfl
private theorem idx_v30 (k : Fin 1700000) : idx_main_v30 (ix2 k (0 : Fin 1)) = ix1 k := by
  funext a; match a with | ⟨0, _⟩ => rfl
private theorem idx_v38 (k : Fin 1700000) : idx_main_v38 (ix2 k (0 : Fin 1)) = ix1 k := by
  funext a; match a with | ⟨0, _⟩ => rfl
private theorem idx_v44 (k : Fin 1700000) : idx_main_v44 (ix2 k (0 : Fin 1)) = ix1 k := by
  funext a; match a with | ⟨0, _⟩ => rfl
private theorem idx_v40_v41 (k : Fin 1700000) (j : Fin 128) : idx_main_v40 (idx_main_v41 (ix2 k j)) = ix1 k := by
  funext a; match a with | ⟨0, _⟩ => rfl
private theorem idx_v46_v47 (u : Fin 100000) (j : Fin 128) : idx_main_v46 (idx_main_v47 (ix2 u j)) = ix1 j := by
  funext a; match a with | ⟨0, _⟩ => rfl
private theorem lidx_v7 (u : Fin 100000) (j q : Fin 128) : lidx_main_v7 (ix2 u j) q = ix2 u q := by
  funext a; match a with | ⟨0, _⟩ => rfl | ⟨1, _⟩ => rfl
private theorem ridx_v7 (u : Fin 100000) (j q : Fin 128) : ridx_main_v7 (ix2 u j) q = ix2 q j := by
  funext a; match a with | ⟨0, _⟩ => rfl | ⟨1, _⟩ => rfl

/-! ## The start indices of the three gathers and the scatter indices -/

/-- The start index of the factor's gather at the sources: the source word. -/
theorem v23_at (x1 : IVec S2x1600000 32) (k : Fin 1700000) (h : IsNode (srcAt x1 k)) :
    val_main_v23 (F := Ideal) x1 (ix2 k (0 : Fin 1)) = srcAt x1 k := by
  rw [val_main_v23_apply, idx_v23, val_main_v22_apply, val_main_v19_apply, val_main_v21_apply,
    val_main_v18_apply, val_main_c_apply, val_main_v20_apply, val_main_c_4_apply, v3_eq]
  exact wrap_eq_self h

/-- The start index of the factor's gather at the targets: the target word. -/
theorem v30_at (x1 : IVec S2x1600000 32) (k : Fin 1700000) (h : IsNode (dstAt x1 k)) :
    val_main_v30 (F := Ideal) x1 (ix2 k (0 : Fin 1)) = dstAt x1 k := by
  rw [val_main_v30_apply, idx_v30, val_main_v29_apply, val_main_v26_apply, val_main_v28_apply,
    val_main_v25_apply, val_main_c_5_apply, val_main_v27_apply, val_main_c_6_apply, v6_eq]
  exact wrap_eq_self h

/-- The start index of the rows' gather: the source word. -/
theorem v38_at (x1 : IVec S2x1600000 32) (k : Fin 1700000) (h : IsNode (srcAt x1 k)) :
    val_main_v38 (F := Ideal) x1 (ix2 k (0 : Fin 1)) = srcAt x1 k := by
  rw [val_main_v38_apply, idx_v38, val_main_v37_apply, val_main_v34_apply, val_main_v36_apply,
    val_main_v33_apply, val_main_c_7_apply, val_main_v35_apply, val_main_c_8_apply, v3_eq]
  exact wrap_eq_self h

/-- The scatter index of edge `k`: the target word. -/
theorem v44_at (x1 : IVec S2x1600000 32) (k : Fin 1700000) :
    val_main_v44 (F := Ideal) x1 (ix2 k (0 : Fin 1)) = dstAt x1 k := by
  rw [val_main_v44_apply, idx_v44, v6_eq]
  rfl

/-! ## The messages -/

/-- The factor gathered at edge `k`'s source. -/
theorem v24_at (x1 : IVec S2x1600000 32) (k : Fin 1700000) (h : IsNode (srcAt x1 k)) :
    val_main_v24 (F := Ideal) x1 (ix1 k) = disAt x1 (nodeOf (srcAt x1 k)) := by
  unfold val_main_v24
  rw [Cert.LibVecGather.gather_vec_apply_of (by decide) gather_S100000_S1700000x1_S1700000_n_0_n_n_0_1_1
    rfl rfl rfl rfl rfl rfl rfl, node_congr (v23_at x1 k h), v17_eq]
  rfl

/-- The factor gathered at edge `k`'s target. -/
theorem v31_at (x1 : IVec S2x1600000 32) (k : Fin 1700000) (h : IsNode (dstAt x1 k)) :
    val_main_v31 (F := Ideal) x1 (ix1 k) = disAt x1 (nodeOf (dstAt x1 k)) := by
  unfold val_main_v31
  rw [Cert.LibVecGather.gather_vec_apply_of (by decide) gather_S100000_S1700000x1_S1700000_n_0_n_n_0_1_1
    rfl rfl rfl rfl rfl rfl rfl, node_congr (v30_at x1 k h), v17_eq]
  rfl

/-- The row of the product `x W1` gathered at edge `k`'s source, at column `j`. -/
theorem v39_at (x0 : FVec Ideal S100000x128 .f32) (x1 : IVec S2x1600000 32) (x2 : FVec Ideal S128x128 .f32)
    (k : Fin 1700000) (j : Fin 128) (h : IsNode (srcAt x1 k)) :
    val_main_v39 (F := Ideal) x0 x1 x2 (ix2 k j)
      = xw (fun u j => x0 (ix2 u j)) (fun j c => x2 (ix2 j c)) (nodeOf (srcAt x1 k)) j := by
  unfold val_main_v39
  rw [Cert.LibIndex.gather_row_apply_of (by decide) gather_S100000x128_S1700000x1_S1700000x128_1_0_n_n_0_1_1128
    rfl rfl rfl rfl rfl rfl rfl, node_congr (v38_at x1 k h), val_main_v7_apply]
  unfold xw
  refine Finset.sum_congr rfl fun q _ => ?_
  rw [lidx_v7, ridx_v7]

/-- The product of the two factors, spread along the row. -/
theorem v41_at (x1 : IVec S2x1600000 32) (k : Fin 1700000) (j : Fin 128)
    (hs : IsNode (srcAt x1 k)) (hd : IsNode (dstAt x1 k)) :
    val_main_v41 (F := Ideal) x1 (ix2 k j) = disAt x1 (nodeOf (srcAt x1 k)) * disAt x1 (nodeOf (dstAt x1 k)) := by
  rw [val_main_v41_apply, val_main_v40_apply, idx_v40_v41, val_main_v32_apply, v24_at x1 k hs, v31_at x1 k hd]
  rfl

/-- Edge `k`'s message at column `j`: the gathered row entry scaled by both factors. -/
theorem v42_at (x0 : FVec Ideal S100000x128 .f32) (x1 : IVec S2x1600000 32) (x2 : FVec Ideal S128x128 .f32)
    (k : Fin 1700000) (j : Fin 128) (hs : IsNode (srcAt x1 k)) (hd : IsNode (dstAt x1 k)) :
    val_main_v42 (F := Ideal) x0 x1 x2 (ix2 k j)
      = xw (fun u j => x0 (ix2 u j)) (fun j c => x2 (ix2 j c)) (nodeOf (srcAt x1 k)) j
        * (disAt x1 (nodeOf (srcAt x1 k)) * disAt x1 (nodeOf (dstAt x1 k))) := by
  rw [val_main_v42_apply, v39_at x0 x1 x2 k j hs, v41_at x1 k j hs hd]
  rfl

/-! ## The aggregation, the bias and the rectifier -/

/-- The rows added at their targets, read at `(u, j)`: the sum of the messages of the edges whose target is `u`. -/
theorem v45_at (x0 : FVec Ideal S100000x128 .f32) (x1 : IVec S2x1600000 32) (x2 : FVec Ideal S128x128 .f32)
    (hsrc : ∀ k, IsNode (srcAt x1 k)) (hdst : ∀ k, IsNode (dstAt x1 k)) (u : Fin 100000) (j : Fin 128) :
    val_main_v45 (F := Ideal) x0 x1 x2 (ix2 u j)
      = ∑ k : Fin 1700000, if (dstAt x1 k).toInt = (u.val : Int) then
          xw (fun u j => x0 (ix2 u j)) (fun j c => x2 (ix2 j c)) (nodeOf (srcAt x1 k)) j
            * (disAt x1 (nodeOf (srcAt x1 k)) * disAt x1 (nodeOf (dstAt x1 k))) else 0 := by
  unfold val_main_v45
  rw [Cert.LibIndex.scatterAdd_row_apply_of scatter_S100000x128_S1700000x1_S1700000x128_1_0_0_1 rfl rfl rfl rfl,
    val_main_v43_apply, val_main_cst_9_apply]
  rw [show FloatOps.ofBits (F := Ideal) .f32 0x00000000#32 = (0 : EReal) from Ideal.ofBits_zero_f32, zero_add]
  refine Finset.sum_congr rfl fun k _ => ?_
  rw [v44_at x1 k, v42_at x0 x1 x2 k j (hsrc k) (hdst k)]

/-- The reference's first layer, read at `(u, j)`: the product `x W1`, each edge's row gathered and scaled by both
    factors, the rows added at their targets, the bias, the rectifier — the hidden layer of the specification. -/
theorem ref_hidden (x0 : FVec Ideal S100000x128 .f32) (x1 : IVec S2x1600000 32) (x2 : FVec Ideal S128x128 .f32) (x3 : FVec Ideal S128 .f32)
    (hsrc : ∀ k, IsNode (srcAt x1 k)) (hdst : ∀ k, IsNode (dstAt x1 k))
    (hd0 : ∀ v, 0 ≤ disAt x1 v) (hdt : ∀ v, disAt x1 v ≠ ⊤) (u : Fin 100000) (j : Fin 128) :
    val_main_v49 (F := Ideal) x0 x1 x2 x3 (ix2 u j) = hiddenAt x0 x1 x2 x3 u j := by
  rw [val_main_v49_apply, val_main_v48_apply, v45_at x0 x1 x2 hsrc hdst u j, val_main_v47_apply, val_main_v46_apply,
    idx_v46_v47, val_main_call1_v0_apply, val_main_call1_cst_apply]
  exact layerEdgeAt_eq_layerAt relu (srcAt x1) (dstAt x1) (disAt x1) hd0 hdt
    (fun u j => x0 (ix2 u j)) (fun j c => x2 (ix2 j c)) (fun c => x3 (ix1 c)) u j

end Cert.Gcn.Ref

end
-- ==== Proof.RefValue.lean ====
/-
  The reference's second layer, read stage by stage at an index.

  The same stages as the first layer at width 16, over the hidden features in place of the input features and with no
  rectifier: the product h W2 at (u, c) is a sum over the 128 hidden features, each of which is the specification's
  hidden layer; every edge gathers the row of that product at its source and the two normalisation factors; the scatter
  adds the messages of the edges whose target is v; then the bias. The algebraic law moves the target's factor out of
  the sum, which gives the specification's result.
-/
import proofs.«416256_j36223754174949_2_alg».proof.Proof.RefHidden

noncomputable section

open scoped BigOperators

namespace Cert.Gcn.Ref

open Idealize.ShloMosaic Idealize.ShloMosaic.ValueIdx
open Cert.ReferenceIdeal Cert.ReferenceIdeal.Read

/-! ## The edge words and the factor, as the specification names them -/

private theorem v3_src (x1 : IVec S2x1600000 32) : val_main_v3 (F := Ideal) x1 = srcOf x1 := rfl
private theorem v6_dst (x1 : IVec S2x1600000 32) : val_main_v6 (F := Ideal) x1 = dstOf x1 := rfl
private theorem v60_dis (x1 : IVec S2x1600000 32) : val_main_v60 (F := Ideal) x1 = disOf (dstOf x1) := rfl

/-- A word that is a node number is not negative, so the wrap-around of negative start indices returns it unchanged. -/
private theorem wrap_node (w : BitVec 32) (h : IsNode w) :
    Scalar.select (IntOp.cmpi .slt w 0#32) (IntOp.addi w 100000#32) w = w := by
  have hs : w.slt 0#32 = false := by
    rw [BitVec.slt, BitVec.toInt_zero]
    exact decide_eq_false (not_lt.mpr h.1)
  have hc : IntOp.cmpi .slt w 0#32 = 0#1 := by
    show BitVec.ofBool (w.slt 0#32) = 0#1
    rw [hs]; rfl
  rw [hc, select_zero]

/-- The start indices of the gather of the factor at the sources: the source words. -/
private theorem start66 (x1 : IVec S2x1600000 32) (k : Fin 1700000) (h : IsNode (srcAt x1 k)) :
    val_main_v66 (F := Ideal) x1 (ix2 k (0 : Fin 1)) = srcAt x1 k := by
  have hi : idx_main_v66 (ix2 k (0 : Fin 1)) = ix1 k := funext fun a => by match a with | ⟨0, _⟩ => rfl
  rw [val_main_v66_apply, hi, val_main_v65_apply, val_main_v62_apply, val_main_v64_apply, val_main_v61_apply,
    val_main_c_15_apply, val_main_v63_apply, val_main_c_16_apply, v3_src]
  exact wrap_node _ h

/-- The start indices of the gather of the factor at the targets: the target words. -/
private theorem start73 (x1 : IVec S2x1600000 32) (k : Fin 1700000) (h : IsNode (dstAt x1 k)) :
    val_main_v73 (F := Ideal) x1 (ix2 k (0 : Fin 1)) = dstAt x1 k := by
  have hi : idx_main_v73 (ix2 k (0 : Fin 1)) = ix1 k := funext fun a => by match a with | ⟨0, _⟩ => rfl
  rw [val_main_v73_apply, hi, val_main_v72_apply, val_main_v69_apply, val_main_v71_apply, val_main_v68_apply,
    val_main_c_17_apply, val_main_v70_apply, val_main_c_18_apply, v6_dst]
  exact wrap_node _ h

/-- The start indices of the gather of the projected rows: the source words. -/
private theorem start81 (x1 : IVec S2x1600000 32) (k : Fin 1700000) (h : IsNode (srcAt x1 k)) :
    val_main_v81 (F := Ideal) x1 (ix2 k (0 : Fin 1)) = srcAt x1 k := by
  have hi : idx_main_v81 (ix2 k (0 : Fin 1)) = ix1 k := funext fun a => by match a with | ⟨0, _⟩ => rfl
  rw [val_main_v81_apply, hi, val_main_v80_apply, val_main_v77_apply, val_main_v79_apply, val_main_v76_apply,
    val_main_c_19_apply, val_main_v78_apply, val_main_c_20_apply, v3_src]
  exact wrap_node _ h

/-! ## The gathers at an element -/

/-- A gather of the factor at a start index that is the word `w`: the factor of the node `w` names. -/
private theorem vec_gather_node (f : FVec Ideal S100000 .f32) (idx : IVec S1700000x1 32) (k : Fin 1700000) (w : BitVec 32)
    (h : idx (ix2 k (0 : Fin 1)) = w) :
    Host.gather gather_S100000_S1700000x1_S1700000_n_0_n_n_0_1_1 f idx (ix1 k) = f (ix1 (nodeOf w)) := by
  rw [Cert.LibVecGather.gather_vec_apply_of (by decide) gather_S100000_S1700000x1_S1700000_n_0_n_n_0_1_1
    rfl rfl rfl rfl rfl rfl rfl f idx k]
  subst h
  rfl

/-- A gather of rows at a start index that is the word `w`: the row of the node `w` names. -/
private theorem row_gather_node (f : FVec Ideal S100000x16 .f32) (idx : IVec S1700000x1 32) (k : Fin 1700000) (c : Fin 16)
    (w : BitVec 32) (h : idx (ix2 k (0 : Fin 1)) = w) :
    Host.gather gather_S100000x16_S1700000x1_S1700000x16_1_0_n_n_0_1_116 f idx (ix2 k c) = f (ix2 (nodeOf w) c) := by
  rw [Cert.LibIndex.gather_row_apply_of (by decide) gather_S100000x16_S1700000x1_S1700000x16_1_0_n_n_0_1_116
    rfl rfl rfl rfl rfl rfl rfl f idx k c]
  subst h
  rfl

/-- The factor gathered at edge `k`'s source. -/
private theorem dis_src (x1 : IVec S2x1600000 32) (k : Fin 1700000) (h : IsNode (srcAt x1 k)) :
    val_main_v67 (F := Ideal) x1 (ix1 k) = disAt x1 (nodeOf (srcAt x1 k)) := by
  unfold val_main_v67
  rw [vec_gather_node _ _ k _ (start66 x1 k h), v60_dis]
  rfl

/-- The factor gathered at edge `k`'s target. -/
private theorem dis_dst (x1 : IVec S2x1600000 32) (k : Fin 1700000) (h : IsNode (dstAt x1 k)) :
    val_main_v74 (F := Ideal) x1 (ix1 k) = disAt x1 (nodeOf (dstAt x1 k)) := by
  unfold val_main_v74
  rw [vec_gather_node _ _ k _ (start73 x1 k h), v60_dis]
  rfl

/-- Edge `k`'s scale, broadcast along the 16 classes: the product of the two factors. -/
private theorem scale2 (x1 : IVec S2x1600000 32) (k : Fin 1700000) (c : Fin 16)
    (hs : IsNode (srcAt x1 k)) (hd : IsNode (dstAt x1 k)) :
    val_main_v84 (F := Ideal) x1 (ix2 k c) = disAt x1 (nodeOf (srcAt x1 k)) * disAt x1 (nodeOf (dstAt x1 k)) := by
  have hi : idx_main_v83 (idx_main_v84 (ix2 k c)) = ix1 k := funext fun a => by match a with | ⟨0, _⟩ => rfl
  rw [val_main_v84_apply, val_main_v83_apply, hi, val_main_v75_apply, Ideal.mulf_def, dis_src x1 k hs, dis_dst x1 k hd]

/-! ## The second layer -/

section Layer2
variable (x0 : FVec Ideal S100000x128 .f32) (x1 : IVec S2x1600000 32) (x2 : FVec Ideal S128x128 .f32) (x3 : FVec Ideal S128 .f32)
  (x4 : FVec Ideal S128x16 .f32)
  (hsrc : ∀ k, IsNode (srcAt x1 k)) (hdst : ∀ k, IsNode (dstAt x1 k))
  (hd0 : ∀ v, 0 ≤ disAt x1 v) (hdt : ∀ v, disAt x1 v ≠ ⊤)

include hsrc hdst hd0 hdt in
/-- The hidden features times the second weight matrix, at `(u, c)`. -/
private theorem proj2 (u : Fin 100000) (c : Fin 16) :
    val_main_v50 (F := Ideal) x0 x1 x2 x3 x4 (ix2 u c) = xw (hiddenAt x0 x1 x2 x3) (fun j c => x4 (ix2 j c)) u c := by
  rw [val_main_v50_apply]
  unfold xw
  refine Finset.sum_congr rfl fun j _ => ?_
  have hl : lidx_main_v50 (ix2 u c) j = ix2 u j := funext fun a => by match a with | ⟨0, _⟩ => rfl | ⟨1, _⟩ => rfl
  have hr : ridx_main_v50 (ix2 u c) j = ix2 j c := funext fun a => by match a with | ⟨0, _⟩ => rfl | ⟨1, _⟩ => rfl
  rw [hl, hr, ref_hidden x0 x1 x2 x3 hsrc hdst hd0 hdt u j]

include hsrc hdst hd0 hdt in
/-- Edge `k`'s message in class `c`: the projected row of its source, scaled by both factors. -/
private theorem msg2 (k : Fin 1700000) (c : Fin 16) :
    val_main_v85 (F := Ideal) x0 x1 x2 x3 x4 (ix2 k c)
      = xw (hiddenAt x0 x1 x2 x3) (fun j c => x4 (ix2 j c)) (nodeOf (srcAt x1 k)) c
        * (disAt x1 (nodeOf (srcAt x1 k)) * disAt x1 (nodeOf (dstAt x1 k))) := by
  rw [val_main_v85_apply, Ideal.mulf_def, scale2 x1 k c (hsrc k) (hdst k)]
  unfold val_main_v82
  rw [row_gather_node _ _ k c _ (start81 x1 k (hsrc k)), proj2 x0 x1 x2 x3 x4 hsrc hdst hd0 hdt]

end Layer2

/-- The reference's result, read at `(v, c)`: the second layer over the hidden features — the specification's result. -/
theorem ref_value (x0 : FVec Ideal S100000x128 .f32) (x1 : IVec S2x1600000 32) (x2 : FVec Ideal S128x128 .f32) (x3 : FVec Ideal S128 .f32)
    (x4 : FVec Ideal S128x16 .f32) (x5 : FVec Ideal S16 .f32)
    (hsrc : ∀ k, IsNode (srcAt x1 k)) (hdst : ∀ k, IsNode (dstAt x1 k))
    (hd0 : ∀ v, 0 ≤ disAt x1 v) (hdt : ∀ v, disAt x1 v ≠ ⊤) (v : Fin 100000) (c : Fin 16) :
    val_main_v91 (F := Ideal) x0 x1 x2 x3 x4 x5 (ix2 v c) = outAt x0 x1 x2 x3 x4 x5 v c := by
  -- the bias, broadcast to every node
  have hb : idx_main_v89 (idx_main_v90 (ix2 v c)) = ix1 c := funext fun a => by match a with | ⟨0, _⟩ => rfl
  rw [val_main_v91_apply, Ideal.addf_def, val_main_v90_apply, val_main_v89_apply, hb]
  -- the messages added at their targets, into zeros
  unfold val_main_v88
  rw [Cert.LibIndex.scatterAdd_row_apply_of scatter_S100000x16_S1700000x1_S1700000x16_1_0_0_1 rfl rfl rfl rfl _ _ _ v c]
  rw [val_main_v86_apply, val_main_cst_21_apply, Ideal.ofBits_def, Ideal.ofBits_zero_f32, zero_add]
  -- this is the arrangement with both factors inside the sum; the algebraic law gives the specification's
  unfold outAt
  refine Eq.trans ?_ (layerEdgeAt_eq_layerAt id (srcAt x1) (dstAt x1) (disAt x1) hd0 hdt (hiddenAt x0 x1 x2 x3)
    (fun j c => x4 (ix2 j c)) (fun c => x5 (ix1 c)) v c)
  unfold layerEdgeAt
  rw [id_eq]
  refine congrArg (fun s => s + x5 (ix1 c)) ?_
  refine Finset.sum_congr rfl fun k _ => ?_
  -- edge by edge: the scatter index is the target word, the update is the message
  have hi : idx_main_v87 (ix2 k (0 : Fin 1)) = ix1 k := funext fun a => by match a with | ⟨0, _⟩ => rfl
  have hd : val_main_v87 (F := Ideal) x1 (ix2 k (0 : Fin 1)) = dstAt x1 k := by
    rw [val_main_v87_apply, hi, v6_dst]
    rfl
  rw [hd, msg2 x0 x1 x2 x3 x4 hsrc hdst hd0 hdt k c]

end Cert.Gcn.Ref

end
-- ==== Proof.EdgeWords.lean ====
/-
  The edge words are node numbers. The precondition's last conjunct says that every entry `w` of the edge list
  satisfies `0 ≤ w < 100000` as a signed word; a source or target word is either such an entry (edge `k < 1600000`
  reads row 0 or row 1 at column `k`) or the self-loop's own number `k - 1600000 < 100000`, a word whose signed
  reading is that number.
-/
import proofs.«416256_j36223754174949_2_alg».proof.Pre_finite_inputs
import proofs.«416256_j36223754174949_2_alg».proof.Proof.Spec
import Idealize.ShloMosaic.Lib.StableHlo.Predicate
import Idealize.ShloMosaic.Lib.ReduceAll
import Idealize.ShloMosaic.Lib.Pipeline.Value

noncomputable section

namespace Cert.Gcn

open Idealize.ShloMosaic Idealize.ShloMosaic.ValueIdx

/-- A word that compares signed at least zero and signed below 100000 is a node number. -/
private theorem isNode_of_cmpi (w : BitVec 32) (h0 : IntOp.cmpi .sge w 0#32 = 1#1) (h1 : IntOp.cmpi .slt w 100000#32 = 1#1) :
    IsNode w := by
  unfold IntOp.cmpi at h0 h1
  rw [StableHlo.Predicate.ofBool_eq_one_iff] at h0 h1
  simp only [BitVec.sle, BitVec.slt, decide_eq_true_eq] at h0 h1
  have z : (0#32).toInt = 0 := by decide
  have c : (100000#32).toInt = 100000 := by decide
  rw [z] at h0
  rw [c] at h1
  exact ⟨h0, h1⟩

/-- The rank-0 shape has one index. -/
private instance : Subsingleton S0.Idx := ⟨fun a b => funext fun d => d.elim0⟩

/-- The precondition's last conjunct, decoded: every entry of the edge list is a node number. -/
theorem isNode_of_pre [Cert.Pre_finite_inputs.Facts] (x0 : FVec Ideal ⟨2, ![100000, 128]⟩ .f32) (ei : IVec S2xM 32)
    (x2 : FVec Ideal ⟨2, ![128, 128]⟩ .f32) (x3 : FVec Ideal ⟨1, ![128]⟩ .f32) (x4 : FVec Ideal ⟨2, ![128, 16]⟩ .f32)
    (x5 : FVec Ideal ⟨1, ![16]⟩ .f32)
    (h : Cert.Pre_finite_inputs.fn (F := Ideal) x0 ei x2 x3 x4 x5 = fun _ => 1#1) (i : S2xM.Idx) : IsNode (ei i) := by
  -- the predicate at its one index is a conjunction whose last member is the conjunction, over all entries, of the two compares
  have e := congrFun h ix0
  dsimp only [Cert.Pre_finite_inputs.fn, Cert.Pre_finite_inputs.fn_part1] at e
  have e2 := (IntOp.andi_eq_one.1 e).2
  -- a conjunction over all entries that holds, holds at entry `i`
  have e3 := Host.reduce_andi_all _ _ _ _ ix0 e2 i
  obtain ⟨g0, g1⟩ := IntOp.andi_eq_one.1 e3
  exact isNode_of_cmpi (ei i) g0 g1

/-- One row of the edge list followed by the node numbers, read at edge `k`: an entry of the edge list when
    `k < 1600000`, else the number `k - 1600000` as a word. Either way a node number. -/
private theorem cat_isNode (ei : IVec S2xM 32) (h : ∀ i : S2xM.Idx, IsNode (ei i)) (off : Fin S2xM.rank → Nat)
    (hs : S2xM.Slices off S1xM) (k : Fin 1700000) :
    IsNode (concatenate SE 0 [⟨SM, shapeCast SM (extractStridedSlice S1xM off ei hs) cast_row⟩, ⟨SN, iotaInDim SN 32 0⟩]
      cat_loops (ix1 k)) := by
  by_cases hk : k.val < 1600000
  · -- the first piece at position `k`: the reshape and the slice each read the edge list at some index
    rw [concatenate_pair_apply_left (0 : Fin SE.rank) _ _ cat_loops (ix1 k) rfl (ix1 (⟨k.val, hk⟩ : Fin 1600000))
      (fun b => by match b with | ⟨0, _⟩ => rfl)]
    exact h _
  · -- the second piece at position `k - 1600000`: that number as a 32-bit word, below 2³¹, so read signed it is itself
    rw [concatenate_pair_apply_right (0 : Fin SE.rank) _ _ cat_loops (ix1 k) rfl rfl
      (ix1 (⟨k.val - 1600000, by have := k.isLt; omega⟩ : Fin 100000))
      (fun b hb => by match b with | ⟨0, _⟩ => exact absurd rfl hb)
      (by show k.val - 1600000 + 1600000 = k.val; omega)]
    show IsNode (BitVec.ofNat 32 (k.val - 1600000))
    have hlt : k.val - 1600000 < 100000 := by have := k.isLt; omega
    unfold IsNode
    rw [StableHlo.Predicate.toInt_ofNat_small _ (by omega)]
    omega

/-- Every source word is then a node number: an entry of row 0, or a self-loop's own number. -/
theorem srcAt_isNode (ei : IVec S2xM 32) (h : ∀ i : S2xM.Idx, IsNode (ei i)) (k : Fin 1700000) : IsNode (srcAt ei k) :=
  cat_isNode ei h ![0, 0] slice_row0 k

/-- Every target word is a node number: an entry of row 1, or a self-loop's own number. -/
theorem dstAt_isNode (ei : IVec S2xM 32) (h : ∀ i : S2xM.Idx, IsNode (ei i)) (k : Fin 1700000) : IsNode (dstAt ei k) :=
  cat_isNode ei h ![1, 0] slice_row1 k

end Cert.Gcn

end
-- ==== Proof.DisBound.lean ====
/-
  The normalisation factor lies in [0, ⊤).

  At node v the factor is either zero (where the degree is not positive) or the reciprocal square root of
  max (deg v) 1, an extended real that is at least one. On the extended reals the reciprocal square root of a number
  y ≥ 1 (the value ⊤ included, where it is 0) is a real number between 0 and 1. Nothing about the degree itself is
  needed beyond that lower bound.
-/
import proofs.«416256_j36223754174949_2_alg».proof.Proof.Spec
import proofs.«416256_j36223754174949_2_alg».proof.Proof.LibIndex
import Idealize.ShloMosaic.PureOps.Ideal.Laws
import Idealize.ShloMosaic.Lib.IdealHost

noncomputable section

open scoped BigOperators

namespace Cert.Gcn

open Idealize.ShloMosaic Idealize.ShloMosaic.ValueIdx

/-- The reciprocal square root of an extended real that is at least one (`⊤` included, where it is `0`) is a
    nonnegative real: on a real `r ≥ 1` it is `(√r)⁻¹`, and the inverse of a nonnegative real is nonnegative. -/
private theorem rsqrt_of_one_le (y : EReal) (hy : 1 ≤ y) : 0 ≤ Ideal.rsqrt y ∧ Ideal.rsqrt y ≠ ⊤ := by
  induction y using EReal.rec with
  | bot => exact absurd (le_trans zero_le_one hy) (not_le.mpr EReal.bot_lt_zero)
  | top => rw [Ideal.rsqrt_top]; exact ⟨le_rfl, EReal.zero_ne_top⟩
  | coe r =>
    have hr : (1 : ℝ) ≤ r := by exact_mod_cast hy
    rw [Ideal.rsqrt_coe, if_neg (by linarith), if_neg (by linarith)]
    exact ⟨EReal.coe_nonneg.mpr (inv_nonneg.mpr (Real.sqrt_nonneg r)), EReal.coe_ne_top _⟩

/-- A rank-0 constant broadcast to any shape reads, everywhere, the extended real its word encodes. -/
private theorem splat_apply {t : Shape} (dims : Fin S0.rank → Fin t.rank) (h : S0.BroadcastsInDim t dims) (b : BitVec 32)
    (i : t.Idx) : broadcastInDim t dims h (constant (F := Ideal) S0 .f32 b) i = Ideal.ofBits .f32 b := rfl

/-- The host's reciprocal square root at an index is the extended reals' one of the element. -/
private theorem host_rsqrt_apply {s : Shape} (x : FVec Ideal s .f32) (i : s.Idx) :
    Host.rsqrt (F := Ideal) x i = Ideal.rsqrt (x i) := rfl

/-- The factor of node `v` is a select, on the bit "the degree is positive", between `rsqrt (max (deg v) 1)` and
    zero (the words `0x3F800000` and `0x00000000` encode one and zero). -/
private theorem disAt_shape (ei : IVec S2xM 32) (v : Fin 100000) :
    ∃ (c : BitVec 1) (y : EReal), disAt ei v = Scalar.select c (Ideal.rsqrt (max y 1)) 0 := by
  refine ⟨cmpf .ogt (degOf (dstOf ei)) (broadcastInDim SN ![] splat_N (constant (F := Ideal) S0 .f32 0x00000000#32)) (ix1 v),
    degOf (dstOf ei) (ix1 v), ?_⟩
  unfold disAt disOf
  rw [select_apply, host_rsqrt_apply, maximumf_apply, id_eq, splat_apply, splat_apply, Ideal.ofBits_one_f32,
    Ideal.ofBits_zero_f32]

/-- The normalisation factor is nonnegative … -/
theorem disAt_nonneg (ei : IVec S2xM 32) (v : Fin 100000) : 0 ≤ disAt ei v := by
  obtain ⟨c, y, h⟩ := disAt_shape ei v
  rw [h]
  unfold Scalar.select
  split
  · exact (rsqrt_of_one_le _ (le_max_right y 1)).1
  · exact le_rfl

/-- … and finite: `rsqrt` of a number that is at least one, or zero. -/
theorem disAt_ne_top (ei : IVec S2xM 32) (v : Fin 100000) : disAt ei v ≠ ⊤ := by
  obtain ⟨c, y, h⟩ := disAt_shape ei v
  rw [h]
  unfold Scalar.select
  split
  · exact (rsqrt_of_one_le _ (le_max_right y 1)).2
  · exact EReal.zero_ne_top

end Cert.Gcn

end
-- ==== Proof.lean ====
/-
  The certificate of a two-layer graph convolution: a Pallas kernel program (two fused projection regions that
  pre-scale by the per-node factor, two fused regions that post-scale, add the bias and, in the first layer,
  rectify; the row gather and the scatter-add between them on the host) against the plain reference, which scales
  each edge's message by both endpoint factors inside the aggregation.

  Precondition: the float inputs are finite and every entry of the edge list is a node number (the reference indexes
  its arrays with them). The float part is never opened: on the extended reals the two programs agree whatever the
  features and weights are, because the only law between the two arrangements is that a factor `d` with `0 ≤ d < ⊤`
  — the normalisation factor, a reciprocal square root of a number at least one, or zero — moves out of a finite sum,
  beside associativity of the product.

  The frames of the two kernel programs are the generated ones; the reference's frame is its generated run with the
  result dropped. For the value claim, the kernel program's run names its result buffer's contents (the last boundary
  of the generated fold), and that boundary is walked back through the four regions and the host stretches to the
  specification's function `Cert.Gcn.outArr` of the arguments; the reference's run ends at the same function, read
  stage by stage. The idealization rewrote nothing, so `preserves` is trivial.
-/
import proofs.«416256_j36223754174949_2_alg».proof.Defs
import proofs.«416256_j36223754174949_2_alg».proof.Proof.Gen.Kernel
import proofs.«416256_j36223754174949_2_alg».proof.Proof.Gen.Kernel.Frame
import proofs.«416256_j36223754174949_2_alg».proof.Proof.Gen.KernelIdeal
import proofs.«416256_j36223754174949_2_alg».proof.Proof.Gen.KernelIdeal.Frame
import proofs.«416256_j36223754174949_2_alg».proof.Proof.Gen.ReferenceIdeal
import proofs.«416256_j36223754174949_2_alg».proof.Proof.Gen.Pre_finite_inputs
import proofs.«416256_j36223754174949_2_alg».proof.Proof.KRun
import proofs.«416256_j36223754174949_2_alg».proof.Proof.KWalk
import proofs.«416256_j36223754174949_2_alg».proof.Proof.RefValue
import proofs.«416256_j36223754174949_2_alg».proof.Proof.EdgeWords
import proofs.«416256_j36223754174949_2_alg».proof.Proof.DisBound
import Idealize.ShloMosaic.Adequacy
import Idealize.ShloMosaic.Init

noncomputable section

namespace Cert.Proof

open Idealize.ShloMosaic Idealize.ShloMosaic.TcCoe Idealize.ShloMosaic.ValueIdx Idealize.SL.Sem
open Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification's function of the arguments. The precondition gives
    that every edge word is a node number; the factor's bounds hold for any edge list. -/
theorem algebraic : Cert.algebraic_KernelIdeal_ReferenceIdeal := by
  intro m ρ m' ρ' hpre hagree
  have hnode : ∀ c : Dev Cert.KernelIdeal.nD, ∀ i, IsNode (m ((c.tc : Thread Cert.KernelIdeal.nD Cert.KernelIdeal.τ).loc Cert.KernelIdeal.main_arg1) i) :=
    fun c => isNode_of_pre _ _ _ _ _ _ (hpre c)
  refine ⟨fun c => outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Gen.run_main (F := Ideal) m ρ)
    funext i
    obtain ⟨v, c', rfl⟩ : ∃ (v : Fin 100000) (c' : Fin 16), i = ix2 v c' := ⟨i 0, i 1, eq_ix2 i⟩
    exact Cert.Gcn.K.kernel_value m ρ c (fun k => srcAt_isNode _ (hnode c) k) v c'
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v91_eq, (hagree c).1, (hagree c).2.1, (hagree c).2.2.1, (hagree c).2.2.2.1,
      (hagree c).2.2.2.2.1, (hagree c).2.2.2.2.2]
    funext i
    obtain ⟨v, c', rfl⟩ : ∃ (v : Fin 100000) (c' : Fin 16), i = ix2 v c' := ⟨i 0, i 1, eq_ix2 i⟩
    exact Cert.Gcn.Ref.ref_value _ _ _ _ _ _ (fun k => srcAt_isNode _ (hnode c) k) (fun k => dstAt_isNode _ (hnode c) k)
      (fun v => disAt_nonneg _ v) (fun v => disAt_ne_top _ v) v c'

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
